-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S100000x512 : Shape := ⟨2, ![100000, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S128x512 .f32) (main_arg1 : FVec F S100000x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S128x512 : Shape := ⟨2, ![128, 512]⟩
abbrev S100000x512 : Shape := ⟨2, ![100000, 512]⟩
abbrev S128x100000 : Shape := ⟨2, ![128, 100000]⟩
abbrev S1024x512 : Shape := ⟨2, ![1024, 512]⟩
abbrev S128x8192 : Shape := ⟨2, ![128, 8192]⟩
abbrev S128x1024 : Shape := ⟨2, ![128, 1024]⟩

abbrev nBuf : Space → Nat
  | .hbm => 3
  | .vmem => 19
  | .smem => 0
  | _ => 0

abbrev bufTy : (tb : Table) → Fin (tcTables nBuf tb) → BufTy
  | .hbm, ⟨0, _⟩ => ⟨S128x512, .f32⟩
  | .hbm, ⟨1, _⟩ => ⟨S100000x512, .f32⟩
  | .hbm, ⟨2, _⟩ => ⟨S128x100000, .f32⟩
  | .local _ .vmem, ⟨0, _⟩ => ⟨S128x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S128x8192, .f32⟩
  | .local _ .vmem, ⟨18, _⟩ => ⟨S128x8192, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.muli c8_i32 arg0
  let c0_i32 : BitVec 32 := 0#32
  let v1 : BitVec 32 := Scalar.addi v0 c0_i32
  let c97_i32 : BitVec 32 := 97#32
  let v2 : BitVec 32 := Scalar.minsi v1 c97_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.addi v0 c1_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli c8_i32 arg0
  let c2_i32 : BitVec 32 := 2#32
  let v1 : BitVec 32 := Scalar.addi v0 c2_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.muli c8_i32 arg0
  let c3_i32 : BitVec 32 := 3#32
  let v1 : BitVec 32 := Scalar.addi v0 c3_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.muli c8_i32 arg0
  let c4_i32 : BitVec 32 := 4#32
  let v1 : BitVec 32 := Scalar.addi v0 c4_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.muli c8_i32 arg0
  let c5_i32 : BitVec 32 := 5#32
  let v1 : BitVec 32 := Scalar.addi v0 c5_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.muli c8_i32 arg0
  let c6_i32 : BitVec 32 := 6#32
  let v1 : BitVec 32 := Scalar.addi v0 c6_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c8_i32 : BitVec 32 := 8#32
  let v0 : BitVec 32 := Scalar.muli c8_i32 arg0
  let c7_i32 : BitVec 32 := 7#32
  let v1 : BitVec 32 := Scalar.addi v0 c7_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S128x8192_S128x1024_0_0 : ∀ a, (![0, 0] : Fin 2 → Nat) a + S128x1024.size a ≤ S128x8192.size a
  h_S128x1024 : 0 < S128x1024.numel
  inb_S128x8192_S128x1024_0_1024 : ∀ a, (![0, 1024] : Fin 2 → Nat) a + S128x1024.size a ≤ S128x8192.size a
  inb_S128x8192_S128x1024_0_2048 : ∀ a, (![0, 2048] : Fin 2 → Nat) a + S128x1024.size a ≤ S128x8192.size a
  inb_S128x8192_S128x1024_0_3072 : ∀ a, (![0, 3072] : Fin 2 → Nat) a + S128x1024.size a ≤ S128x8192.size a
  inb_S128x8192_S128x1024_0_4096 : ∀ a, (![0, 4096] : Fin 2 → Nat) a + S128x1024.size a ≤ S128x8192.size a
  inb_S128x8192_S128x1024_0_5120 : ∀ a, (![0, 5120] : Fin 2 → Nat) a + S128x1024.size a ≤ S128x8192.size a
  inb_S128x8192_S128x1024_0_6144 : ∀ a, (![0, 6144] : Fin 2 → Nat) a + S128x1024.size a ≤ S128x8192.size a
  inb_S128x8192_S128x1024_0_7168 : ∀ a, (![0, 7168] : Fin 2 → Nat) a + S128x1024.size a ≤ S128x8192.size a
  dot_S128x512_S1024x512_S128x1024_1_1_0_0_n_n_wf : DotDims.WF S128x512 S1024x512 S128x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .f32 = 32 ∨ (Rect.block (s := S128x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S100000x512.size a
  hwx0_1 : ∀ i : grid0.Coords, EltTy.bits .f32 = 32 ∨ (Rect.unit (s := S100000x512) (fun a => cc0_transform_1 i a * S1024x512.size a) (fun a => (Pipeline.Clip.of (cc0_transform_1 i a) (S1024x512.size a) (S100000x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S100000x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x512.size a < S100000x512.size a
  hwx0_2 : ∀ i : grid0.Coords, EltTy.bits .f32 = 32 ∨ (Rect.unit (s := S100000x512) (fun a => cc0_transform_2 i a * S1024x512.size a) (fun a => (Pipeline.Clip.of (cc0_transform_2 i a) (S1024x512.size a) (S100000x512.size a)).extent (S1024x512.size a)) fun a => Pipeline.Clip.inb (Pipeline.Clip.ok_of (hstart0_2 i a))).WholeWords (EltTy.packing .f32)
  hwxs0_2 : ∀ i : grid0.Coords, EltTy.bits .f32 = 32 ∨ (Rect.unit (s := S1024x512) (fun _ => 0) (fun a => (Pipeline.Clip.of (cc0_transform_2 i a) (S1024x512.size a) (S100000x512.size a)).extent (S1024x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x512.size a < S100000x512.size a
  hwx0_3 : ∀ i : grid0.Coords, EltTy.bits .f32 = 32 ∨ (Rect.unit (s := S100000x512) (fun a => cc0_transform_3 i a * S1024x512.size a) (fun a => (Pipeline.Clip.of (cc0_transform_3 i a) (S1024x512.size a) (S100000x512.size a)).extent (S1024x512.size a)) fun a => Pipeline.Clip.inb (Pipeline.Clip.ok_of (hstart0_3 i a))).WholeWords (EltTy.packing .f32)
  hwxs0_3 : ∀ i : grid0.Coords, EltTy.bits .f32 = 32 ∨ (Rect.unit (s := S1024x512) (fun _ => 0) (fun a => (Pipeline.Clip.of (cc0_transform_3 i a) (S1024x512.size a) (S100000x512.size a)).extent (S1024x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x512.size a < S100000x512.size a
  hwx0_4 : ∀ i : grid0.Coords, EltTy.bits .f32 = 32 ∨ (Rect.unit (s := S100000x512) (fun a => cc0_transform_4 i a * S1024x512.size a) (fun a => (Pipeline.Clip.of (cc0_transform_4 i a) (S1024x512.size a) (S100000x512.size a)).extent (S1024x512.size a)) fun a => Pipeline.Clip.inb (Pipeline.Clip.ok_of (hstart0_4 i a))).WholeWords (EltTy.packing .f32)
  hwxs0_4 : ∀ i : grid0.Coords, EltTy.bits .f32 = 32 ∨ (Rect.unit (s := S1024x512) (fun _ => 0) (fun a => (Pipeline.Clip.of (cc0_transform_4 i a) (S1024x512.size a) (S100000x512.size a)).extent (S1024x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1024x512.size a < S100000x512.size a
  hwx0_5 : ∀ i : grid0.Coords, EltTy.bits .f32 = 32 ∨ (Rect.unit (s := S100000x512) (fun a => cc0_transform_5 i a * S1024x512.size a) (fun a => (Pipeline.Clip.of (cc0_transform_5 i a) (S1024x512.size a) (S100000x512.size a)).extent (S1024x512.size a)) fun a => Pipeline.Clip.inb (Pipeline.Clip.ok_of (hstart0_5 i a))).WholeWords (EltTy.packing .f32)
  hwxs0_5 : ∀ i : grid0.Coords, EltTy.bits .f32 = 32 ∨ (Rect.unit (s := S1024x512) (fun _ => 0) (fun a => (Pipeline.Clip.of (cc0_transform_5 i a) (S1024x512.size a) (S100000x512.size a)).extent (S1024x512.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1024x512.size a < S100000x512.size a
  hwx0_6 : ∀ i : grid0.Coords, EltTy.bits .f32 = 32 ∨ (Rect.unit (s := S100000x512) (fun a => cc0_transform_6 i a * S1024x512.size a) (fun a => (Pipeline.Clip.of (cc0_transform_6 i a) (S1024x512.size a) (S100000x512.size a)).extent (S1024x512.size a)) fun a => Pipeline.Clip.inb (Pipeline.Clip.ok_of (hstart0_6 i a))).WholeWords (EltTy.packing .f32)
  hwxs0_6 : ∀ i : grid0.Coords, EltTy.bits .f32 = 32 ∨ (Rect.unit (s := S1024x512) (fun _ => 0) (fun a => (Pipeline.Clip.of (cc0_transform_6 i a) (S1024x512.size a) (S100000x512.size a)).extent (S1024x512.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1024x512.size a < S100000x512.size a
  hwx0_7 : ∀ i : grid0.Coords, EltTy.bits .f32 = 32 ∨ (Rect.unit (s := S100000x512) (fun a => cc0_transform_7 i a * S1024x512.size a) (fun a => (Pipeline.Clip.of (cc0_transform_7 i a) (S1024x512.size a) (S100000x512.size a)).extent (S1024x512.size a)) fun a => Pipeline.Clip.inb (Pipeline.Clip.ok_of (hstart0_7 i a))).WholeWords (EltTy.packing .f32)
  hwxs0_7 : ∀ i : grid0.Coords, EltTy.bits .f32 = 32 ∨ (Rect.unit (s := S1024x512) (fun _ => 0) (fun a => (Pipeline.Clip.of (cc0_transform_7 i a) (S1024x512.size a) (S100000x512.size a)).extent (S1024x512.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1024x512.size a < S100000x512.size a
  hwx0_8 : ∀ i : grid0.Coords, EltTy.bits .f32 = 32 ∨ (Rect.unit (s := S100000x512) (fun a => cc0_transform_8 i a * S1024x512.size a) (fun a => (Pipeline.Clip.of (cc0_transform_8 i a) (S1024x512.size a) (S100000x512.size a)).extent (S1024x512.size a)) fun a => Pipeline.Clip.inb (Pipeline.Clip.ok_of (hstart0_8 i a))).WholeWords (EltTy.packing .f32)
  hwxs0_8 : ∀ i : grid0.Coords, EltTy.bits .f32 = 32 ∨ (Rect.unit (s := S1024x512) (fun _ => 0) (fun a => (Pipeline.Clip.of (cc0_transform_8 i a) (S1024x512.size a) (S100000x512.size a)).extent (S1024x512.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S128x8192.size a < S128x100000.size a
  hwx0_9 : ∀ i : grid0.Coords, EltTy.bits .f32 = 32 ∨ (Rect.unit (s := S128x100000) (fun a => cc0_transform_9 i a * S128x8192.size a) (fun a => (Pipeline.Clip.of (cc0_transform_9 i a) (S128x8192.size a) (S128x100000.size a)).extent (S128x8192.size a)) fun a => Pipeline.Clip.inb (Pipeline.Clip.ok_of (hstart0_9 i a))).WholeWords (EltTy.packing .f32)
  hwxs0_9 : ∀ i : grid0.Coords, EltTy.bits .f32 = 32 ∨ (Rect.unit (s := S128x8192) (fun _ => 0) (fun a => (Pipeline.Clip.of (cc0_transform_9 i a) (S128x8192.size a) (S128x100000.size a)).extent (S128x8192.size a)) fun a => (Nat.zero_add _).trans_le (Pipeline.Clip.extent_le (Pipeline.Clip.ok_of (hstart0_9 i a)))).WholeWords (EltTy.packing .f32)

variable [Facts₀]

def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf

abbrev win0_0 : Pipeline.Window sig grid0 :=
  Pipeline.Window.ofSpec (Memref.whole main_arg0) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S1024x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg1) S1024x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg1) S1024x512.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_arg1) S1024x512.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_arg1) S1024x512.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_arg1) S1024x512.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_arg1) S1024x512.size cc0_transform_8 reads0_8 false false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v0) S128x8192.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S128x512 : Shape := ⟨2, ![128, 512]⟩
abbrev S100000x512 : Shape := ⟨2, ![100000, 512]⟩
abbrev S512x100000 : Shape := ⟨2, ![512, 100000]⟩
abbrev S128x100000 : Shape := ⟨2, ![128, 100000]⟩

abbrev nBuf : Space → Nat
  | .hbm => 4
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S100000x512, .f32⟩
  | .hbm, ⟨2, _⟩ => ⟨S512x100000, .f32⟩
  | .hbm, ⟨3, _⟩ => ⟨S128x100000, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S100000x512_S512x100000_1_0 : S100000x512.Transposes [1, 0] S512x100000
  dot_S128x512_S512x100000_S128x100000_1_0_0_1_n_n_wf : DotDims.WF S128x512 S512x100000 S128x100000 [1] [0] [0] [1] [] []

variable [Facts₀]

def dot_S128x512_S512x100000_S128x100000_1_0_0_1_n_n : DotDims S128x512 S512x100000 S128x100000 where
  lhsContracting := [1]
  rhsContracting := [0]
  lhsNonContracting := [0]
  rhsNonContracting := [1]
  lhsBatch := []
  rhsBatch := []
  wf := dot_S128x512_S512x100000_S128x100000_1_0_0_1_n_n_wf

class Facts : Prop extends Facts₀ where

variable [Facts]
-- ==== Proof.K.Data.lean ====
/-
  The kernel's proof data at the printed program (the same text as the idealized program's, read at any instance): the arrays the region finds, each window's block at a grid
  point, what the body leaves in the result's staging buffer, and the shares at which the eight weight windows
  hold the one weight array.

  The kernel computes logits = x · wᵀ for x : [128, 512] and w : [100000, 512]. Grid point t (13 of them) handles
  result columns 8192·t … 8192·t + 8191; weight window j (1 ≤ j ≤ 8) stages rows 1024·min(8t + j − 1, 97) … of w,
  and the body writes, for each j, the product of x with that window's staged rows into columns
  1024·(j − 1) … 1024·j − 1 of the result's staging buffer.
-/
import proofs.«135577_g40484361732593_fold_wed_c4_616_37_alg».proof.Proof.Gen.Kernel.Launch
import proofs.«135577_g40484361732593_fold_wed_c4_616_37_alg».proof.Proof.Gen.Kernel.Skeleton
import proofs.«135577_g40484361732593_fold_wed_c4_616_37_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The TensorCore's buffers when the region is entered: as launched (the program is the region alone). -/
abbrev V (c : Dev nD) (b : Ref sig .tc) : Buf (Elt F) ((c : Thread nD τ).loc b) := m ((c : Thread nD τ).loc b)

/-- Window `w`'s block at point `t`, read off its array: the part of the block inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body computes -/

/-- One product of the body: x (rounded to bf16) against 1024 staged weight rows (rounded to bf16), from a zero
    accumulator: a [128, 1024] tile. -/
def mm (a : Vec F S128x512 .f32) (w : Vec F S1024x512 .f32) : Vec F S128x1024 .f32 :=
  matmul dot_S128x512_S1024x512_S128x1024_1_1_0_0_n_n none (truncf .bf16 a bitsLt_bf16_f32) (truncf .bf16 w bitsLt_bf16_f32)
    (constant S128x1024 .f32 0x00000000#32)

/-- The eight column bands of the result's staging buffer. -/
abbrev rO0 : Rect S128x8192 := Rect.unit (s := S128x8192) ![0, 0] S128x1024.size inb_S128x8192_S128x1024_0_0
abbrev rO1 : Rect S128x8192 := Rect.unit (s := S128x8192) ![0, 1024] S128x1024.size inb_S128x8192_S128x1024_0_1024
abbrev rO2 : Rect S128x8192 := Rect.unit (s := S128x8192) ![0, 2048] S128x1024.size inb_S128x8192_S128x1024_0_2048
abbrev rO3 : Rect S128x8192 := Rect.unit (s := S128x8192) ![0, 3072] S128x1024.size inb_S128x8192_S128x1024_0_3072
abbrev rO4 : Rect S128x8192 := Rect.unit (s := S128x8192) ![0, 4096] S128x1024.size inb_S128x8192_S128x1024_0_4096
abbrev rO5 : Rect S128x8192 := Rect.unit (s := S128x8192) ![0, 5120] S128x1024.size inb_S128x8192_S128x1024_0_5120
abbrev rO6 : Rect S128x8192 := Rect.unit (s := S128x8192) ![0, 6144] S128x1024.size inb_S128x8192_S128x1024_0_6144
abbrev rO7 : Rect S128x8192 := Rect.unit (s := S128x8192) ![0, 7168] S128x1024.size inb_S128x8192_S128x1024_0_7168

/-- The result's staging buffer after the body, from what the nine input buffers hold: its eight stores as pieces,
    the last store first; band j holds the product of x with weight buffer j + 1. -/
def out9 (a : Vec F S128x512 .f32) (w1 w2 w3 w4 w5 w6 w7 w8 : Vec F S1024x512 .f32) : Vec F S128x8192 .f32 :=
  View.canon [⟨rO7, mm a w8⟩, ⟨rO6, mm a w7⟩, ⟨rO5, mm a w6⟩, ⟨rO4, mm a w5⟩, ⟨rO3, mm a w4⟩, ⟨rO2, mm a w3⟩, ⟨rO1, mm a w2⟩, ⟨rO0, mm a w1⟩]

/-! ## The shares of the weight array -/

/-- The weight array is read by eight windows: each holds one eighth of it (a full share halved three times). The
    activation window holds its array outright; the result's window is an output and holds its array outright
    whatever is said here. -/
def shares : Fin 10 → PosShare TreeShare := fun
  | 0 => fullShare
  | 1 => fullShare.left.left.left
  | 2 => fullShare.left.left.right
  | 3 => fullShare.left.right.left
  | 4 => fullShare.left.right.right
  | 5 => fullShare.right.left.left
  | 6 => fullShare.right.left.right
  | 7 => fullShare.right.right.left
  | 8 => fullShare.right.right.right
  | 9 => fullShare
  | ⟨_ + 10, h⟩ => absurd h (Nat.not_lt.2 (Nat.le_add_left _ _))

/-- The word a staging row past the array's end is given where a value must be named and nothing reads it. -/
def zf : S1024x512.Idx → Elt F .f32 := fun _ => Scalar.ofBits .f32 0#32

/-- A weight window's staged rows at point `t`: its block inside the array, the rows past the array's end at `d`. -/
abbrev wst (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The proof data of the one pipeline on core `c`: the arrays as launched; after the body each input's buffer
    holds its block (a weight window's rows past the array's end named zero) and the result's buffer the eight
    products of those; the invariant the scoped rest and the generator register, untouched; nothing owed; the weight array dealt in eighths. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wst m c 1 t zf
    | ⟨2, _⟩ => wst m c 2 t zf
    | ⟨3, _⟩ => wst m c 3 t zf
    | ⟨4, _⟩ => wst m c 4 t zf
    | ⟨5, _⟩ => wst m c 5 t zf
    | ⟨6, _⟩ => wst m c 6 t zf
    | ⟨7, _⟩ => wst m c 7 t zf
    | ⟨8, _⟩ => wst m c 8 t zf
    | ⟨9, _⟩ => out9 (iblk m c 0 t) (wst m c 1 t zf) (wst m c 2 t zf) (wst m c 3 t zf) (wst m c 4 t zf)
        (wst m c 5 t zf) (wst m c 6 t zf) (wst m c 7 t zf) (wst m c 8 t zf)
  Φ _ := Pipeline.ΦA spec0 c
  q := shares
  owed _ := 0

end Cert.Kernel.Hand

end
-- ==== Proof.K.SoundKernel.lean ====
/-
  The kernel body's triple: on whole staging buffers, the nine inputs' at contents the caller names and the result's
  at anything, the body runs to its end leaving the inputs' as they were and the result's holding the eight products.
-/
import proofs.«135577_g40484361732593_fold_wed_c4_616_37_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

namespace SoundKernel

/-- The eight column bands tile the [128, 8192] buffer in blocks of [128, 1024] (checked by evaluation), so every
    index of the buffer lies in one of them, whatever the bands hold. -/
theorem cover_bands (p0 p1 p2 p3 p4 p5 p6 p7 : Vec F S128x1024 .f32) (y : S128x8192.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] :
      List (View.Piece (Elt F) S128x8192 .f32)), y ∈ pc.1.set :=
  View.cover_of_tiled ([⟨rO7, p7⟩, ⟨rO6, p6⟩, ⟨rO5, p5⟩, ⟨rO4, p4⟩, ⟨rO3, p3⟩, ⟨rO2, p2⟩, ⟨rO1, p1⟩, ⟨rO0, p0⟩] :
      List (View.Piece (Elt F) S128x8192 .f32)) S128x1024.size (by rfl) y

/-- The rectangle through which the body loads the whole activation buffer, -/
abbrev rA : Rect S128x512 := Rect.unit (s := S128x512) ![0, 0] S128x512.size inb_S128x512_S128x512_0_0
/-- and the one through which it loads a whole weight buffer. -/
abbrev rW : Rect S1024x512 := Rect.unit (s := S1024x512) ![0, 0] S1024x512.size inb_S1024x512_S1024x512_0_0

/-- A load of the whole activation buffer reads its contents. -/
theorem ld_a (X : Vec F S128x512 .f32) : View.ld X rA = X :=
  View.ld_unit_zero (by funext a; fin_cases a <;> rfl) _ X

/-- A load of a whole weight buffer reads its contents. -/
theorem ld_w (X : Vec F S1024x512 .f32) : View.ld X rW = X :=
  View.ld_unit_zero (by funext a; fin_cases a <;> rfl) _ X

/-- The eight stored tiles, as the run computes them from the loaded buffers, are the eight products `mm`: each
    whole-buffer load reads the buffer's contents, and each tile is the product of the bf16 roundings of x and of
    one weight buffer from a zero accumulator — whether the rounding of x (and, for band 5, of the weights, with the
    zero accumulator) was computed once and passed on or in place. -/
theorem out9_of_run (a : Vec F S128x512 .f32) (w1 w2 w3 w4 w5 w6 w7 w8 : Vec F S1024x512 .f32) :
    View.canon ([⟨rO7, k0_pay3 (k0_pay4 (View.ld a rA)) (View.ld w8 rW)⟩,
        ⟨rO6, k0_pay2 (k0_pay4 (View.ld a rA)) (View.ld w7 rW)⟩,
        ⟨rO5, k0_pay1 (k0_pay4 (View.ld a rA)) (k0_pay10 (View.ld w6 rW)) (constant S128x1024 .f32 0x00000000#32)⟩,
        ⟨rO4, k0_pay9 (View.ld a rA) (View.ld w5 rW)⟩,
        ⟨rO3, k0_pay8 (View.ld a rA) (View.ld w4 rW)⟩,
        ⟨rO2, k0_pay7 (View.ld a rA) (View.ld w3 rW)⟩,
        ⟨rO1, k0_pay6 (View.ld a rA) (View.ld w2 rW)⟩,
        ⟨rO0, k0_pay5 (View.ld a rA) (View.ld w1 rW)⟩] : List (View.Piece (Elt F) S128x8192 .f32))
      = out9 a w1 w2 w3 w4 w5 w6 w7 w8 := by
  rw [ld_a, ld_w w1, ld_w w2, ld_w w3, ld_w w4, ld_w w5, ld_w w6, ld_w w7, ld_w w8]
  rfl

end SoundKernel

open SoundKernel in
set_option maxHeartbeats 1000000 in
/-- The body loads x once and each weight buffer once, and stores each product into its own column band of the
    result's buffer; the bands tile the buffer, so what it holds afterwards is `out9` of the inputs. The loads of the
    result's buffer that precede each store read values nothing uses. -/
theorem sound_kernel (c : Dev nD) (E : Set ℕ) (i : grid0.Coords) (arg1 : Memref sig .tc .vmem S128x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S128x8192 .f32) (harg10 : arg10.IsWhole)
    (a : Vec F S128x512 .f32) (w1 w2 w3 w4 w5 w6 w7 w8 : Vec F S1024x512 .f32) (K : PUnit → sProp 𝕄) :
    iprop(owns (c : Thread nD τ) arg1 fullShare a ∗ owns (c : Thread nD τ) arg2 fullShare w1 ∗ owns (c : Thread nD τ) arg3 fullShare w2
        ∗ owns (c : Thread nD τ) arg4 fullShare w3 ∗ owns (c : Thread nD τ) arg5 fullShare w4 ∗ owns (c : Thread nD τ) arg6 fullShare w5
        ∗ owns (c : Thread nD τ) arg7 fullShare w6 ∗ owns (c : Thread nD τ) arg8 fullShare w7 ∗ owns (c : Thread nD τ) arg9 fullShare w8
        ∗ (∃ d, owns (c : Thread nD τ) arg10 fullShare d)
        ∗ (iprop(owns (c : Thread nD τ) arg1 fullShare a ∗ owns (c : Thread nD τ) arg2 fullShare w1 ∗ owns (c : Thread nD τ) arg3 fullShare w2
            ∗ owns (c : Thread nD τ) arg4 fullShare w3 ∗ owns (c : Thread nD τ) arg5 fullShare w4 ∗ owns (c : Thread nD τ) arg6 fullShare w5
            ∗ owns (c : Thread nD τ) arg7 fullShare w6 ∗ owns (c : Thread nD τ) arg8 fullShare w7 ∗ owns (c : Thread nD τ) arg9 fullShare w8
            ∗ owns (c : Thread nD τ) arg10 fullShare (out9 a w1 w2 w3 w4 w5 w6 w7 w8)) -∗ K ⟨⟩))
      ⊢ wp frame (wpE (defs₀ (F := F)) Variants.none c none) E
          (cc0__pfc_kernel i arg1 harg1 arg2 harg2 arg3 harg3 arg4 harg4 arg5 harg5 arg6 harg6 arg7 harg7 arg8 harg8 arg9 harg9 arg10 harg10) K := by
  simp only [cc0__pfc_kernel_eq_skeleton]; unfold cc0__pfc_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  sl_unfold_run_names
  exact (View.read_writes_eq_canon _ _ _ (cover_bands _ _ _ _ _ _ _ _)).trans
    (out9_of_run (View.read (Elt F) arg1.view f1) (View.read (Elt F) arg2.view f2) (View.read (Elt F) arg3.view f3)
      (View.read (Elt F) arg4.view f4) (View.read (Elt F) arg5.view f5) (View.read (Elt F) arg6.view f6)
      (View.read (Elt F) arg7.view f7) (View.read (Elt F) arg8.view f8) (View.read (Elt F) arg9.view f9))

end Cert.Kernel.Hand

end
-- ==== Proof.K.Split.lean ====
/-
  The weight array, held whole at the region's entry, dealt among the eight windows that read it.
-/
import proofs.«135577_g40484361732593_fold_wed_c4_616_37_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- One points-to, its share halved three times: the eight eighths, side by side. -/
theorem pointsTo_eighths {ℓ : Loc nD τ sig} (I : Finset (Idx ℓ)) (q : PosShare TreeShare) (f : Buf (Elt F) ℓ) :
    (ℓ ↦[I]{q} f : sProp 𝕄) ⊢
      iprop((ℓ ↦[I]{q.left.left.left} f) ∗ (ℓ ↦[I]{q.left.left.right} f) ∗ (ℓ ↦[I]{q.left.right.left} f) ∗ (ℓ ↦[I]{q.left.right.right} f)
        ∗ (ℓ ↦[I]{q.right.left.left} f) ∗ (ℓ ↦[I]{q.right.left.right} f) ∗ (ℓ ↦[I]{q.right.right.left} f) ∗ (ℓ ↦[I]{q.right.right.right} f)) := by
  iintro H
  ihave H := (pointsTo_share (PosShare.mem_left_op_right q)).1 $$ H
  icases H with ⟨HL, HR⟩
  ihave HL := (pointsTo_share (PosShare.mem_left_op_right q.left)).1 $$ HL
  icases HL with ⟨HLL, HLR⟩
  ihave HR := (pointsTo_share (PosShare.mem_left_op_right q.right)).1 $$ HR
  icases HR with ⟨HRL, HRR⟩
  ihave HLL := (pointsTo_share (PosShare.mem_left_op_right q.left.left)).1 $$ HLL
  icases HLL with ⟨H1, H2⟩
  ihave HLR := (pointsTo_share (PosShare.mem_left_op_right q.left.right)).1 $$ HLR
  icases HLR with ⟨H3, H4⟩
  ihave HRL := (pointsTo_share (PosShare.mem_left_op_right q.right.left)).1 $$ HRL
  icases HRL with ⟨H5, H6⟩
  ihave HRR := (pointsTo_share (PosShare.mem_left_op_right q.right.right)).1 $$ HRR
  icases HRR with ⟨H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The distinct buffers behind the ten windows' arrays: the activations, the weights, the result. -/
theorem arrRef_image : Finset.univ.image (Pipeline.arrRef spec0) = {main_arg0, main_arg1, main_v0} := by
  decide

/-- Window `w`'s array is a whole buffer: its points-to is the plain one on the buffer behind it. -/
theorem win_arr (c : Dev nD) (w : Fin 10) :
    ((cfg0.win w).arr.view.loc (c.tc : Thread nD τ) ↦[(cfg0.win w).arr.view.set]{(dats m 0 c).share w} (dats m 0 c).A w : sProp 𝕄)
      = ((c.tc : Thread nD τ).loc (Pipeline.arrRef spec0 w) ↦{(dats m 0 c).share w} V m c (Pipeline.arrRef spec0 w)) := by
  rw [(Gen.arr_whole0 w).set_eq_univ]; rfl

/-- At the region's entry the three buffers behind the windows' arrays are held whole at the full share. Halving the
    weight array's share three times gives the eight weight windows an eighth each; the activation array and the
    result array go to their one window whole. This is the proof data's `arrays` at the entry contents. -/
theorem hsplit (c : Dev nD) :
    (Pipeline.arrBufs spec0 c (V m c) : sProp 𝕄) ⊢ (dats m 0 c).arrays ((dats m 0 c).A) := by
  unfold Pipeline.arrBufs Dat.arrays
  -- the left side is over three buffers; the right side is ten points-tos, each on a whole buffer
  rw [arrRef_image, Gen.bigSep_W0, win_arr m c 0, win_arr m c 1, win_arr m c 2, win_arr m c 3, win_arr m c 4, win_arr m c 5, win_arr m c 6,
    win_arr m c 7, win_arr m c 8, win_arr m c 9]
  -- windows 1 to 8 all sit on the weight buffer, each at its eighth; windows 0 and 9 hold their buffers whole
  show _ ⊢ iprop((((c.tc : Thread nD τ).loc main_arg0) ↦{fullShare} V m c main_arg0)
    ∗ (((c.tc : Thread nD τ).loc main_arg1) ↦{fullShare.left.left.left} V m c main_arg1)
    ∗ (((c.tc : Thread nD τ).loc main_arg1) ↦{fullShare.left.left.right} V m c main_arg1)
    ∗ (((c.tc : Thread nD τ).loc main_arg1) ↦{fullShare.left.right.left} V m c main_arg1)
    ∗ (((c.tc : Thread nD τ).loc main_arg1) ↦{fullShare.left.right.right} V m c main_arg1)
    ∗ (((c.tc : Thread nD τ).loc main_arg1) ↦{fullShare.right.left.left} V m c main_arg1)
    ∗ (((c.tc : Thread nD τ).loc main_arg1) ↦{fullShare.right.left.right} V m c main_arg1)
    ∗ (((c.tc : Thread nD τ).loc main_arg1) ↦{fullShare.right.right.left} V m c main_arg1)
    ∗ (((c.tc : Thread nD τ).loc main_arg1) ↦{fullShare.right.right.right} V m c main_arg1)
    ∗ (((c.tc : Thread nD τ).loc main_v0) ↦{fullShare} V m c main_v0))
  rw [bigSep_insert (show main_arg0 ∉ ({main_arg1, main_v0} : Finset (Ref sig .tc)) by decide),
    bigSep_insert (show main_arg1 ∉ ({main_v0} : Finset (Ref sig .tc)) by decide), bigSep_singleton]
  refine (show iprop((((c.tc : Thread nD τ).loc main_arg0) ↦{fullShare} V m c main_arg0)
    ∗ (((c.tc : Thread nD τ).loc main_arg1) ↦{fullShare} V m c main_arg1)
    ∗ (((c.tc : Thread nD τ).loc main_v0) ↦{fullShare} V m c main_v0)) ⊢ _ from ?_)
  iintro ⟨H0, H1, H9⟩
  -- deal the weight buffer's full share into eighths, then hand the ten pieces over in order
  ihave H1 := (pointsTo_eighths Finset.univ fullShare (V m c main_arg1)) $$ H1
  icases H1 with ⟨W1, W2, W3, W4, W5, W6, W7, W8⟩
  isplitl [H0]; · iexact H0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact H9

end Cert.Kernel.Hand

end
-- ==== Proof.LibSharedFrame.lean ====
/-
  A frame run for a pipelined kernel whose windows may share an array.

  The library's relational frame run takes the windows' arrays pairwise distinct, so that each array is held whole by its
  one window. Here the arrays need not be distinct: the certificate says how the buffers behind the arrays, each held
  whole at the region's entry, are dealt among the windows (`hsplit`: an array read by several input windows split
  among them by share). Everything else is as for distinct arrays: one region on a static grid, no semaphore of the
  kernel's own, the region invariant yielding and yielded by the class invariant.
-/
import Idealize.ShloMosaic.Lib.Pipeline.Frame

noncomputable section

namespace Cert.Lib

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-! ### With prefetched tables, at the tables' contents

The same run stated one level down, for pipelines that may prefetch tables, at admissible contents `a` of the tables.
The layout facts the run consumes are named one by one; how the arrays' buffers are dealt among the windows is the
hypothesis `hsplit`, so nothing here asks that two windows read different arrays. -/

section Tables

open Idealize.ShloMosaic.Rounds

variable (pcs : P → PCfg sig Λ₀ Val) (a : (p : P) → (pcs p).Adm) (p : P)
  (defs₀ : Defs nD τ sig Val Λ₀) (𝒱₀ : Variants)

local notation "cfg" => pin pcs a p

/-- The launch's ghost state pays for the pipelines' cells and for nothing else: no per-core extra is set aside. -/
theorem fund_cells (hcell : Function.Injective (cellOf (nD := nD) (τ := τ) (pin pcs a))) :
    (ownU (initOf (cells (pin pcs a) hcell) (launchToks (pin pcs a) hcell)) : sProp 𝕄)
      ⊢ |={Set.univ}=> iprop(BI.own (emb₁ (initOf (cells (pin pcs a) hcell) (launchToks (pin pcs a) hcell)))
          ∗ bigSep Finset.univ (fun _ : Dev nD => (BI.emp : sProp 𝕄))) := by
  iintro Hu; imodintro
  isplitl [Hu]
  · iapply (show (ownU _ : sProp 𝕄) ⊢ BI.own (emb₁ (initOf (cells (pin pcs a) hcell) (launchToks (pin pcs a) hcell))) from .rfl)
    iexact Hu
  · iapply (show (BI.emp : sProp 𝕄) ⊢ bigSep Finset.univ (fun _ : Dev nD => (BI.emp : sProp 𝕄)) from by rw [BI.bigSep_emp_const])
    iempintro

/-- The frame run over relational proof data for a pipeline with prefetched tables at contents `a`, the windows' arrays
    not assumed distinct: the deal of the arrays' buffers among the windows is given (`hsplit`). -/
theorem rframeP_shared
    (hw : WinFacts₀ (pcs p).spec) (hp : PreFacts (pcs p).spec (pcs p).pre)
    (hcell : Function.Injective (cellOf (nD := nD) (τ := τ) (pin pcs a)))
    (hne : ∀ w : Fin (pcs p).W, 0 < ((pcs p).spec w).block.numel)
    (harr : ∀ w, ((pcs p).spec w).arr.IsWhole) (hstage : ∀ w s, (((pcs p).spec w).stage s).IsWhole)
    (rdat : (c : Dev nD) → RDat τ Val Unit ℕ (UR sig nD τ) ℕ (cfg) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (howed : ∀ c t, (rdat c).owed t = 0)
    (V : (c : Dev nD) → (b : Ref sig .tc) → Buf Val ((c.tc : Thread nD τ).loc b))
    (hmain : HMainP (Ix := Unit) (Name := ℕ) (U := UR sig nD τ) (Lvl := ℕ) pcs p defs₀ 𝒱₀ m main V)
    (hsplit : ∀ c, (arrBufs (cfg).spec c (V c) : sProp 𝕄) ⊢ (rdat c).arrays (rdat c).A)
    (hpf : ∀ c k, V c ((pcs p).pre.ref k) = (a p).1 k)
    (hin : ∀ c, iprop(ΦA (cfg).spec c ∗ ΦT (pcs p).pre (a p).1 c) ⊢ (rdat c).Φ 0)
    (hout : ∀ c, (rdat c).Φ (Fin.last (cfg).N) ⊢ ΦA (cfg).spec c) :
    θ_run (Pipeline.defs pcs defs₀) (onTc main) (s₀ m g) (RDat.FramePost (cfg) rdat V) := by
  classical
  -- entering the region, the class invariant and the tables' halves are at hand
  have enter : ∀ c, (iprop(iprop(∃ r, prngReg c r) ∗ prefHeld (pcs p).pre c (fun _ => fullShare.right) (a p).1 ∗ scopedRest (cfg).spec c) : sProp 𝕄)
      ⊢ iprop(ΦA (cfg).spec c ∗ ΦT (pcs p).pre (a p).1 c) := fun c => by
    unfold ΦA ΦT
    iintro ⟨Hg, Ht, Hs⟩
    isplitr [Ht]
    · isplitl [Hs] <;> iassumption
    · iexact Ht
  -- leaving it, the class invariant gives back the generator register and the scoped rest; no semaphore is owned
  have leave : ∀ c, (ΦA (cfg).spec c : sProp 𝕄)
      ⊢ iprop(iprop(∃ r, prngReg c r) ∗ ownSems0 (fun k : PEmpty => k.elim) c ∗ scopedRest (cfg).spec c) := fun c => by
    rw [ownSems0_none]; unfold ΦA
    iintro ⟨Hs, Hg⟩
    isplitl [Hg]; · iexact Hg
    isplitr; · iempintro
    iexact Hs
  exact RDat.θ_run_region_pf pcs a (RDat.familyOf pcs a p rdat) () hcell p hw (OwnSemFacts.none (cfg).spec) hp emb₁ defs₀ 𝒱₀ m g main
    (fun c => by rw [RDat.familyOf_self]; exact hbody c)
    hne harr hstage (fun c t => by rw [RDat.familyOf_self]; exact howed c t)
    (G := fun _ => iprop(emp)) (u₀ := initOf (cells (pin pcs a) hcell) (launchToks (pin pcs a) hcell))
    (hu₀ := fund_cells pcs a hcell)
    (V := V) (hmain := hmain)
    (hsplit := fun c => by rw [RDat.familyOf_self]; exact hsplit c)
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (cfg).spec c (V c))
    (hX := fun c => by
      iintro ⟨Hrest, -, -, -, Hg, -⟩; imodintro
      isplitl [Hg]; · iexists _; iexact Hg
      iexact Hrest)
    (hin := fun c => by rw [RDat.familyOf_self]; exact (enter c).trans (hin c))
    (hout := fun c => by rw [RDat.familyOf_self]; exact (hout c).trans (leave c))
    (QY := fun c s => ∀ b ∈ restRefsP sig (pcs p).pre (cfg).spec, s.mem ((c.tc : Thread nD τ).loc b) = V c b)
    (hY := fun c s' => by
      iintro ⟨-, Hrest, HSI⟩
      unfold unscopedRestP
      imodintro
      iapply (pointsTo_read_all (restRefsP sig (pcs p).pre (cfg).spec) (fun b => (c.tc : Thread nD τ).loc b) (V c) s')
      isplitl [Hrest] <;> iassumption)
    (hQ := fun s h c => ⟨fun w => by simpa only [RDat.familyOf_self] using (h c).1 w,
      rest_of_restP (pcs p).pre (cfg).spec (a p).1 c (V c) s (hpf c) (h c).2.1 (h c).2.2⟩)

end Tables

/-! ### No table -/

/-- THE FRAME RUN, windows sharing arrays: at the compiled mesh, from any memory with zero counters, every weakly
    fair execution of @main on the TensorCores terminates, every array of the pipeline ends at contents it may hold
    after every write-back (an input's: its entry contents), and every other unscoped buffer as the region found it. -/
theorem rframe_shared (cfgs : P → Cfg sig Λ₀) (p : P)
    (hw : WinFacts₀ (cfgs p).spec)
    (hcell : Function.Injective (cellOf (nD := nD) (τ := τ) cfgs))
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (howed : ∀ c t, (rdat c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (rdat c).arrays (rdat c).A)
    (hin : ∀ c, ΦA (cfgs p).spec c ⊢ (rdat c).Φ 0) (hout : ∀ c, (rdat c).Φ (Fin.last (cfgs p).N) ⊢ ΦA (cfgs p).spec c) :
    θ_run (Pipeline.defs (fun q => Cfg.toPCfg (Val := Val) (cfgs q)) defs₀) (onTc main) (s₀ m g) (RDat.FramePost (cfgs p) rdat V) := by
  exact rframeP_shared (fun q => (cfgs q).toPCfg (Val := Val)) (fun q => (cfgs q).toPCfg_adm) p defs₀ 𝒱₀
    hw (PreFacts.none _) hcell hne harr hstage rdat m g main hbody howed V hmain hsplit (fun _ k => k.elim0)
    (fun c => (show _ ⊢ ΦA (cfgs p).spec c from by iintro ⟨H, -⟩; iexact H).trans (hin c)) hout

end Cert.Lib

end
-- ==== Proof.K.Frame.lean ====
/-
  The frame of the kernel as printed: it runs to its end on every weakly fair schedule, nothing faults, and its two
  argument arrays end as they began. Nothing is claimed of the result array here, so nothing need be said of what the
  body leaves in any staging buffer.
-/
import proofs.«135577_g40484361732593_fold_wed_c4_616_37_alg».proof.Proof.K.Data
import proofs.«135577_g40484361732593_fold_wed_c4_616_37_alg».proof.Proof.K.SoundKernel
import proofs.«135577_g40484361732593_fold_wed_c4_616_37_alg».proof.Proof.K.Split
import proofs.«135577_g40484361732593_fold_wed_c4_616_37_alg».proof.Proof.LibSharedFrame
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, every window forgotten -/

/-- For the frame nothing is asked of what the body leaves in any staging buffer: from the ten buffers at any
    contents the body runs to its end and hands them back at some contents. -/
theorem body_forgotten (c : Dev nD) :
    BodyObligationLoose (dats (F := F) m 0 c) (defs₀ (F := F)) Variants.none () Set.univ (fun _ => true) := fun t => by
  rw [bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩⟩
  iapply (sound_kernel (F := F) c Set.univ (grid0.coords t) _ _ _ _ _ _ _ _ _ _ _ _ _ _ _ _ _ _ _ _
    X0 X1 X2 X3 X4 X5 X6 X7 X8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists X9; iexact H9
  iintro ⟨H0, H1, H2, H3, H4, H5, H6, H7, H8, H9⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-! ## The run and the frame -/

/-- @main is the region alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem A_eq (c : Dev nD) (w : Fin cfg0.W) : (dats m 0 c).A w = V m c (Pipeline.arrRef spec0 w) := by
  dsimp only [dats]

set_option backward.isDefEq.respectTransparency.types false in
/-- Every weakly fair execution of the kernel terminates, nothing faulting; an input window's array ends at its
    entry contents whatever the body left in the staging buffers, and nothing is said of the result array. -/
theorem run_main : θ_run defs (onTc (τ := τ) (main (F := F))) (s₀ m ρ)
    (Pipeline.RDat.FramePost cfg0 (fun c => (dats m 0 c).toRForget (fun _ => true)) (V m)) :=
  Cert.Lib.rframe_shared cfgs (0 : Fin 1) winFacts₀0 cellOf_inj block_pos0 arr_whole0 stage_whole0 defs₀ Variants.none
    (fun c => (dats m 0 c).toRForget (fun _ => true)) m ρ main (fun c => (body_forgotten m c).toRForget) (fun _ _ => rfl) (V m)
    (hmain m Variants.none) (fun c => hsplit m c) (fun _ => .rfl) (fun _ => .rfl)

/-- THE FRAME: the kernel runs to its end and its two argument arrays end unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨(Pipeline.RDat.FramePost.arr_in h c 0 rfl).trans (A_eq m c 0),
     (Pipeline.RDat.FramePost.arr_in h c 1 rfl).trans (A_eq m c 1)⟩) (run_main m ρ)

end Cert.Kernel.Hand

end
-- ==== Proof.KI.Data.lean ====
/-
  The kernel's proof data at the idealized program: the arrays the region finds, each window's block at a grid
  point, what the body leaves in the result's staging buffer, and the shares at which the eight weight windows
  hold the one weight array.

  The kernel computes logits = x · wᵀ for x : [128, 512] and w : [100000, 512]. Grid point t (13 of them) handles
  result columns 8192·t … 8192·t + 8191; weight window j (1 ≤ j ≤ 8) stages rows 1024·min(8t + j − 1, 97) … of w,
  and the body writes, for each j, the product of x with that window's staged rows into columns
  1024·(j − 1) … 1024·j − 1 of the result's staging buffer.
-/
import proofs.«135577_g40484361732593_fold_wed_c4_616_37_alg».proof.Proof.Gen.KernelIdeal.Launch
import proofs.«135577_g40484361732593_fold_wed_c4_616_37_alg».proof.Proof.Gen.KernelIdeal.Skeleton
import proofs.«135577_g40484361732593_fold_wed_c4_616_37_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The TensorCore's buffers when the region is entered: as launched (the program is the region alone). -/
abbrev V (c : Dev nD) (b : Ref sig .tc) : Buf (Elt F) ((c : Thread nD τ).loc b) := m ((c : Thread nD τ).loc b)

/-- Window `w`'s block at point `t`, read off its array: the part of the block inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body computes -/

/-- One product of the body: x (rounded to bf16) against 1024 staged weight rows (rounded to bf16), from a zero
    accumulator: a [128, 1024] tile. -/
def mm (a : Vec F S128x512 .f32) (w : Vec F S1024x512 .f32) : Vec F S128x1024 .f32 :=
  matmul dot_S128x512_S1024x512_S128x1024_1_1_0_0_n_n none (truncf .bf16 a bitsLt_bf16_f32) (truncf .bf16 w bitsLt_bf16_f32)
    (constant S128x1024 .f32 0x00000000#32)

/-- The eight column bands of the result's staging buffer. -/
abbrev rO0 : Rect S128x8192 := Rect.unit (s := S128x8192) ![0, 0] S128x1024.size inb_S128x8192_S128x1024_0_0
abbrev rO1 : Rect S128x8192 := Rect.unit (s := S128x8192) ![0, 1024] S128x1024.size inb_S128x8192_S128x1024_0_1024
abbrev rO2 : Rect S128x8192 := Rect.unit (s := S128x8192) ![0, 2048] S128x1024.size inb_S128x8192_S128x1024_0_2048
abbrev rO3 : Rect S128x8192 := Rect.unit (s := S128x8192) ![0, 3072] S128x1024.size inb_S128x8192_S128x1024_0_3072
abbrev rO4 : Rect S128x8192 := Rect.unit (s := S128x8192) ![0, 4096] S128x1024.size inb_S128x8192_S128x1024_0_4096
abbrev rO5 : Rect S128x8192 := Rect.unit (s := S128x8192) ![0, 5120] S128x1024.size inb_S128x8192_S128x1024_0_5120
abbrev rO6 : Rect S128x8192 := Rect.unit (s := S128x8192) ![0, 6144] S128x1024.size inb_S128x8192_S128x1024_0_6144
abbrev rO7 : Rect S128x8192 := Rect.unit (s := S128x8192) ![0, 7168] S128x1024.size inb_S128x8192_S128x1024_0_7168

/-- The result's staging buffer after the body, from what the nine input buffers hold: its eight stores as pieces,
    the last store first; band j holds the product of x with weight buffer j + 1. -/
def out9 (a : Vec F S128x512 .f32) (w1 w2 w3 w4 w5 w6 w7 w8 : Vec F S1024x512 .f32) : Vec F S128x8192 .f32 :=
  View.canon [⟨rO7, mm a w8⟩, ⟨rO6, mm a w7⟩, ⟨rO5, mm a w6⟩, ⟨rO4, mm a w5⟩, ⟨rO3, mm a w4⟩, ⟨rO2, mm a w3⟩, ⟨rO1, mm a w2⟩, ⟨rO0, mm a w1⟩]

/-! ## The shares of the weight array -/

/-- The weight array is read by eight windows: each holds one eighth of it (a full share halved three times). The
    activation window holds its array outright; the result's window is an output and holds its array outright
    whatever is said here. -/
def shares : Fin 10 → PosShare TreeShare := fun
  | 0 => fullShare
  | 1 => fullShare.left.left.left
  | 2 => fullShare.left.left.right
  | 3 => fullShare.left.right.left
  | 4 => fullShare.left.right.right
  | 5 => fullShare.right.left.left
  | 6 => fullShare.right.left.right
  | 7 => fullShare.right.right.left
  | 8 => fullShare.right.right.right
  | 9 => fullShare
  | ⟨_ + 10, h⟩ => absurd h (Nat.not_lt.2 (Nat.le_add_left _ _))

/-- The word a staging row past the array's end is given where a value must be named and nothing reads it. -/
def zf : S1024x512.Idx → Elt F .f32 := fun _ => Scalar.ofBits .f32 0#32

/-- A weight window's staged rows at point `t`: its block inside the array, the rows past the array's end at `d`. -/
abbrev wst (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The proof data of the one pipeline on core `c`: the arrays as launched; after the body each input's buffer
    holds its block (a weight window's rows past the array's end named zero) and the result's buffer the eight
    products of those; the invariant the scoped rest and the generator register, untouched; nothing owed; the weight array dealt in eighths. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wst m c 1 t zf
    | ⟨2, _⟩ => wst m c 2 t zf
    | ⟨3, _⟩ => wst m c 3 t zf
    | ⟨4, _⟩ => wst m c 4 t zf
    | ⟨5, _⟩ => wst m c 5 t zf
    | ⟨6, _⟩ => wst m c 6 t zf
    | ⟨7, _⟩ => wst m c 7 t zf
    | ⟨8, _⟩ => wst m c 8 t zf
    | ⟨9, _⟩ => out9 (iblk m c 0 t) (wst m c 1 t zf) (wst m c 2 t zf) (wst m c 3 t zf) (wst m c 4 t zf)
        (wst m c 5 t zf) (wst m c 6 t zf) (wst m c 7 t zf) (wst m c 8 t zf)
  Φ _ := Pipeline.ΦA spec0 c
  q := shares
  owed _ := 0

end Cert.KernelIdeal.Hand

end
-- ==== Proof.KI.SoundKernel.lean ====
/-
  The kernel body's triple: on whole staging buffers, the nine inputs' at contents the caller names and the result's
  at anything, the body runs to its end leaving the inputs' as they were and the result's holding the eight products.
-/
import proofs.«135577_g40484361732593_fold_wed_c4_616_37_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

namespace SoundKernel

/-- The eight column bands tile the [128, 8192] buffer in blocks of [128, 1024] (checked by evaluation), so every
    index of the buffer lies in one of them, whatever the bands hold. -/
theorem cover_bands (p0 p1 p2 p3 p4 p5 p6 p7 : Vec F S128x1024 .f32) (y : S128x8192.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] :
      List (View.Piece (Elt F) S128x8192 .f32)), y ∈ pc.1.set :=
  View.cover_of_tiled ([⟨rO7, p7⟩, ⟨rO6, p6⟩, ⟨rO5, p5⟩, ⟨rO4, p4⟩, ⟨rO3, p3⟩, ⟨rO2, p2⟩, ⟨rO1, p1⟩, ⟨rO0, p0⟩] :
      List (View.Piece (Elt F) S128x8192 .f32)) S128x1024.size (by rfl) y

/-- The rectangle through which the body loads the whole activation buffer, -/
abbrev rA : Rect S128x512 := Rect.unit (s := S128x512) ![0, 0] S128x512.size inb_S128x512_S128x512_0_0
/-- and the one through which it loads a whole weight buffer. -/
abbrev rW : Rect S1024x512 := Rect.unit (s := S1024x512) ![0, 0] S1024x512.size inb_S1024x512_S1024x512_0_0

/-- A load of the whole activation buffer reads its contents. -/
theorem ld_a (X : Vec F S128x512 .f32) : View.ld X rA = X :=
  View.ld_unit_zero (by funext a; fin_cases a <;> rfl) _ X

/-- A load of a whole weight buffer reads its contents. -/
theorem ld_w (X : Vec F S1024x512 .f32) : View.ld X rW = X :=
  View.ld_unit_zero (by funext a; fin_cases a <;> rfl) _ X

/-- The eight stored tiles, as the run computes them from the loaded buffers, are the eight products `mm`: each
    whole-buffer load reads the buffer's contents, and each tile is the product of the bf16 roundings of x and of
    one weight buffer from a zero accumulator — whether the rounding of x (and, for band 5, of the weights, with the
    zero accumulator) was computed once and passed on or in place. -/
theorem out9_of_run (a : Vec F S128x512 .f32) (w1 w2 w3 w4 w5 w6 w7 w8 : Vec F S1024x512 .f32) :
    View.canon ([⟨rO7, k0_pay3 (k0_pay4 (View.ld a rA)) (View.ld w8 rW)⟩,
        ⟨rO6, k0_pay2 (k0_pay4 (View.ld a rA)) (View.ld w7 rW)⟩,
        ⟨rO5, k0_pay1 (k0_pay4 (View.ld a rA)) (k0_pay10 (View.ld w6 rW)) (constant S128x1024 .f32 0x00000000#32)⟩,
        ⟨rO4, k0_pay9 (View.ld a rA) (View.ld w5 rW)⟩,
        ⟨rO3, k0_pay8 (View.ld a rA) (View.ld w4 rW)⟩,
        ⟨rO2, k0_pay7 (View.ld a rA) (View.ld w3 rW)⟩,
        ⟨rO1, k0_pay6 (View.ld a rA) (View.ld w2 rW)⟩,
        ⟨rO0, k0_pay5 (View.ld a rA) (View.ld w1 rW)⟩] : List (View.Piece (Elt F) S128x8192 .f32))
      = out9 a w1 w2 w3 w4 w5 w6 w7 w8 := by
  rw [ld_a, ld_w w1, ld_w w2, ld_w w3, ld_w w4, ld_w w5, ld_w w6, ld_w w7, ld_w w8]
  rfl

end SoundKernel

open SoundKernel in
set_option maxHeartbeats 1000000 in
/-- The body loads x once and each weight buffer once, and stores each product into its own column band of the
    result's buffer; the bands tile the buffer, so what it holds afterwards is `out9` of the inputs. The loads of the
    result's buffer that precede each store read values nothing uses. -/
theorem sound_kernel (c : Dev nD) (E : Set ℕ) (i : grid0.Coords) (arg1 : Memref sig .tc .vmem S128x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S128x8192 .f32) (harg10 : arg10.IsWhole)
    (a : Vec F S128x512 .f32) (w1 w2 w3 w4 w5 w6 w7 w8 : Vec F S1024x512 .f32) (K : PUnit → sProp 𝕄) :
    iprop(owns (c : Thread nD τ) arg1 fullShare a ∗ owns (c : Thread nD τ) arg2 fullShare w1 ∗ owns (c : Thread nD τ) arg3 fullShare w2
        ∗ owns (c : Thread nD τ) arg4 fullShare w3 ∗ owns (c : Thread nD τ) arg5 fullShare w4 ∗ owns (c : Thread nD τ) arg6 fullShare w5
        ∗ owns (c : Thread nD τ) arg7 fullShare w6 ∗ owns (c : Thread nD τ) arg8 fullShare w7 ∗ owns (c : Thread nD τ) arg9 fullShare w8
        ∗ (∃ d, owns (c : Thread nD τ) arg10 fullShare d)
        ∗ (iprop(owns (c : Thread nD τ) arg1 fullShare a ∗ owns (c : Thread nD τ) arg2 fullShare w1 ∗ owns (c : Thread nD τ) arg3 fullShare w2
            ∗ owns (c : Thread nD τ) arg4 fullShare w3 ∗ owns (c : Thread nD τ) arg5 fullShare w4 ∗ owns (c : Thread nD τ) arg6 fullShare w5
            ∗ owns (c : Thread nD τ) arg7 fullShare w6 ∗ owns (c : Thread nD τ) arg8 fullShare w7 ∗ owns (c : Thread nD τ) arg9 fullShare w8
            ∗ owns (c : Thread nD τ) arg10 fullShare (out9 a w1 w2 w3 w4 w5 w6 w7 w8)) -∗ K ⟨⟩))
      ⊢ wp frame (wpE (defs₀ (F := F)) Variants.none c none) E
          (cc0__pfc_kernel i arg1 harg1 arg2 harg2 arg3 harg3 arg4 harg4 arg5 harg5 arg6 harg6 arg7 harg7 arg8 harg8 arg9 harg9 arg10 harg10) K := by
  simp only [cc0__pfc_kernel_eq_skeleton]; unfold cc0__pfc_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  sl_unfold_run_names
  exact (View.read_writes_eq_canon _ _ _ (cover_bands _ _ _ _ _ _ _ _)).trans
    (out9_of_run (View.read (Elt F) arg1.view f1) (View.read (Elt F) arg2.view f2) (View.read (Elt F) arg3.view f3)
      (View.read (Elt F) arg4.view f4) (View.read (Elt F) arg5.view f5) (View.read (Elt F) arg6.view f6)
      (View.read (Elt F) arg7.view f7) (View.read (Elt F) arg8.view f8) (View.read (Elt F) arg9.view f9))

end Cert.KernelIdeal.Hand

end
-- ==== Proof.Spec.lean ====
/-
  The specification both programs meet: logits[b, c] = ∑ₖ x[b, k] · w[c, k] over the extended reals, for
  x : [128, 512] and w : [100000, 512] — every row of x against every row of w.
-/
import Idealize.ShloMosaic.PureOps.Ideal
import Idealize.ShloMosaic.Lib.ValueIdx

noncomputable section

namespace Cert.Spec

open Idealize.ShloMosaic Idealize.ShloMosaic.ValueIdx

/-- Entry (b, c) of the result: the inner product of row b of x with row c of w. -/
def logits (x : (⟨2, ![128, 512]⟩ : Shape).Idx → EReal) (w : (⟨2, ![100000, 512]⟩ : Shape).Idx → EReal) :
    (⟨2, ![128, 100000]⟩ : Shape).Idx → EReal :=
  fun i => ∑ k : Fin 512, x (ix2 (i 0) k) * w (ix2 (i 1) k)

end Cert.Spec

end
-- ==== Proof.KI.Flushed.lean ====
/-
  The value leg at the ideal instance: what a grid point writes back to the result array is the specification's
  entries under that point's block, whatever the staged weight rows past the array's end hold.
-/
import proofs.«135577_g40484361732593_fold_wed_c4_616_37_alg».proof.Proof.KI.Data
import proofs.«135577_g40484361732593_fold_wed_c4_616_37_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ)

/-- The specification at the arrays the region finds. -/
abbrev G (c : Dev nD) : Buf (Elt Ideal) ((c : Thread nD τ).loc main_v0) :=
  Cert.Spec.logits (V m c main_arg0) (V m c main_arg1)

open Idealize.ShloMosaic.ValueIdx

/-! ## One product of the body at an index -/

theorem lhs_mm_0 (i : S128x1024.Idx) (q : dot_S128x512_S1024x512_S128x1024_1_1_0_0_n_n.contr.Idx) :
    (dot_S128x512_S1024x512_S128x1024_1_1_0_0_n_n.lhsIdx i q 0).val = (i 0).val := by
  unfold DotDims.lhsIdx
  rw [dif_neg (show ¬(0 : Fin S128x512.rank) ∈ dot_S128x512_S1024x512_S128x1024_1_1_0_0_n_n.lhsBatch by decide), dif_pos (show (0 : Fin S128x512.rank) ∈ dot_S128x512_S1024x512_S128x1024_1_1_0_0_n_n.lhsNonContracting by decide)]
  rfl
theorem lhs_mm_1 (i : S128x1024.Idx) (q : dot_S128x512_S1024x512_S128x1024_1_1_0_0_n_n.contr.Idx) :
    (dot_S128x512_S1024x512_S128x1024_1_1_0_0_n_n.lhsIdx i q 1).val = (q ⟨0, by decide⟩).val :=
  dot_S128x512_S1024x512_S128x1024_1_1_0_0_n_n.lhsIdx_val_of_single rfl i q
theorem rhs_mm_0 (i : S128x1024.Idx) (q : dot_S128x512_S1024x512_S128x1024_1_1_0_0_n_n.contr.Idx) :
    (dot_S128x512_S1024x512_S128x1024_1_1_0_0_n_n.rhsIdx i q 0).val = (i 1).val := by
  unfold DotDims.rhsIdx
  rw [dif_neg (show ¬(0 : Fin S1024x512.rank) ∈ dot_S128x512_S1024x512_S128x1024_1_1_0_0_n_n.rhsBatch by decide), dif_pos (show (0 : Fin S1024x512.rank) ∈ dot_S128x512_S1024x512_S128x1024_1_1_0_0_n_n.rhsNonContracting by decide)]
  rfl
theorem rhs_mm_1 (i : S128x1024.Idx) (q : dot_S128x512_S1024x512_S128x1024_1_1_0_0_n_n.contr.Idx) :
    (dot_S128x512_S1024x512_S128x1024_1_1_0_0_n_n.rhsIdx i q 1).val = (q ⟨0, by decide⟩).val :=
  dot_S128x512_S1024x512_S128x1024_1_1_0_0_n_n.rhsIdx_val_of_single rfl i q

/-- Entry (p, q) of one product: row p of x against staged weight row q (rounding is the identity on the extended
    reals, the accumulator starts at zero). -/
theorem mm_apply (a : Vec Ideal S128x512 .f32) (w : Vec Ideal S1024x512 .f32) (p : Fin 128) (q : Fin 1024) :
    mm (F := Ideal) a w (ix2 p q) = ∑ k : Fin 512, a (ix2 p k) * w (ix2 q k) := by
  unfold mm
  simp only [matmul]
  rw [Ideal.matmul_constant_zero_apply, ← Equiv.sum_comp (ValueIdx.contrEquiv1 dot_S128x512_S1024x512_S128x1024_1_1_0_0_n_n 512 rfl rfl).symm]
  refine Finset.sum_congr rfl fun k _ => ?_
  have hk := ValueIdx.contrEquiv1_symm_val dot_S128x512_S1024x512_S128x1024_1_1_0_0_n_n 512 rfl rfl k
  have el : dot_S128x512_S1024x512_S128x1024_1_1_0_0_n_n.lhsIdx (ix2 p q) ((ValueIdx.contrEquiv1 dot_S128x512_S1024x512_S128x1024_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S128x512_S1024x512_S128x1024_1_1_0_0_n_n.rhsIdx (ix2 p q) ((ValueIdx.contrEquiv1 dot_S128x512_S1024x512_S128x1024_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]
  rfl

/-! ## The result's staging buffer at an index -/

/-- A column left of a band is not in it. -/
theorem not_mem_band {o : Nat} {inb : ∀ a, (![0, o] : Fin 2 → Nat) a + S128x1024.size a ≤ S128x8192.size a} (p : Fin 128) (cl : Fin 8192)
    (h : cl.val < o) : (ix2 p cl : S128x8192.Idx) ∉ (Rect.unit (s := S128x8192) ![0, o] S128x1024.size inb).set := fun hm => by
  have h1 := (Rect.mem_set_unit.mp hm) 1
  change o ≤ cl.val ∧ _ at h1
  omega

/-- A band's own index (p, q) sits at column `o + q` of the buffer. -/
theorem band_emb {o : Nat} {inb : ∀ a, (![0, o] : Fin 2 → Nat) a + S128x1024.size a ≤ S128x8192.size a} (p : Fin 128) (q : Fin 1024)
    (h : o + q.val < 8192) :
    (Rect.unit (s := S128x8192) ![0, o] S128x1024.size inb).emb (ix2 p q) = (ix2 p ⟨o + q.val, h⟩ : S128x8192.Idx) :=
  funext fun a => Fin.ext (by
    match a with
    | ⟨0, _⟩ => show 0 + 1 * p.val = p.val; omega
    | ⟨1, _⟩ => show o + 1 * q.val = o + q.val; omega)

/-- Band 0: columns 0 … 1023 hold the product with weight buffer 1. -/
theorem out9_band0 (a : Vec Ideal S128x512 .f32) (w1 w2 w3 w4 w5 w6 w7 w8 : Vec Ideal S1024x512 .f32) (p : Fin 128) (q : Fin 1024)
    (h : 0 + q.val < 8192) :
    out9 (F := Ideal) a w1 w2 w3 w4 w5 w6 w7 w8 (ix2 p ⟨0 + q.val, h⟩) = mm (F := Ideal) a w1 (ix2 p q) := by
  have hq := q.isLt
  unfold out9
  rw [View.canon_cons_of_not_mem ⟨rO7, mm (F := Ideal) a w8⟩ _ (not_mem_band (o := 7168) (inb := inb_S128x8192_S128x1024_0_7168) p ⟨0 + q.val, h⟩ (show 0 + q.val < 7168 by omega)),
    View.canon_cons_of_not_mem ⟨rO6, mm (F := Ideal) a w7⟩ _ (not_mem_band (o := 6144) (inb := inb_S128x8192_S128x1024_0_6144) p ⟨0 + q.val, h⟩ (show 0 + q.val < 6144 by omega)),
    View.canon_cons_of_not_mem ⟨rO5, mm (F := Ideal) a w6⟩ _ (not_mem_band (o := 5120) (inb := inb_S128x8192_S128x1024_0_5120) p ⟨0 + q.val, h⟩ (show 0 + q.val < 5120 by omega)),
    View.canon_cons_of_not_mem ⟨rO4, mm (F := Ideal) a w5⟩ _ (not_mem_band (o := 4096) (inb := inb_S128x8192_S128x1024_0_4096) p ⟨0 + q.val, h⟩ (show 0 + q.val < 4096 by omega)),
    View.canon_cons_of_not_mem ⟨rO3, mm (F := Ideal) a w4⟩ _ (not_mem_band (o := 3072) (inb := inb_S128x8192_S128x1024_0_3072) p ⟨0 + q.val, h⟩ (show 0 + q.val < 3072 by omega)),
    View.canon_cons_of_not_mem ⟨rO2, mm (F := Ideal) a w3⟩ _ (not_mem_band (o := 2048) (inb := inb_S128x8192_S128x1024_0_2048) p ⟨0 + q.val, h⟩ (show 0 + q.val < 2048 by omega)),
    View.canon_cons_of_not_mem ⟨rO1, mm (F := Ideal) a w2⟩ _ (not_mem_band (o := 1024) (inb := inb_S128x8192_S128x1024_0_1024) p ⟨0 + q.val, h⟩ (show 0 + q.val < 1024 by omega)),
    ← band_emb (o := 0) (inb := inb_S128x8192_S128x1024_0_0) p q h]
  exact View.canon_cons_emb _ _ _ _

/-- Band 1: columns 1024 … 2047 hold the product with weight buffer 2. -/
theorem out9_band1 (a : Vec Ideal S128x512 .f32) (w1 w2 w3 w4 w5 w6 w7 w8 : Vec Ideal S1024x512 .f32) (p : Fin 128) (q : Fin 1024)
    (h : 1024 + q.val < 8192) :
    out9 (F := Ideal) a w1 w2 w3 w4 w5 w6 w7 w8 (ix2 p ⟨1024 + q.val, h⟩) = mm (F := Ideal) a w2 (ix2 p q) := by
  have hq := q.isLt
  unfold out9
  rw [View.canon_cons_of_not_mem ⟨rO7, mm (F := Ideal) a w8⟩ _ (not_mem_band (o := 7168) (inb := inb_S128x8192_S128x1024_0_7168) p ⟨1024 + q.val, h⟩ (show 1024 + q.val < 7168 by omega)),
    View.canon_cons_of_not_mem ⟨rO6, mm (F := Ideal) a w7⟩ _ (not_mem_band (o := 6144) (inb := inb_S128x8192_S128x1024_0_6144) p ⟨1024 + q.val, h⟩ (show 1024 + q.val < 6144 by omega)),
    View.canon_cons_of_not_mem ⟨rO5, mm (F := Ideal) a w6⟩ _ (not_mem_band (o := 5120) (inb := inb_S128x8192_S128x1024_0_5120) p ⟨1024 + q.val, h⟩ (show 1024 + q.val < 5120 by omega)),
    View.canon_cons_of_not_mem ⟨rO4, mm (F := Ideal) a w5⟩ _ (not_mem_band (o := 4096) (inb := inb_S128x8192_S128x1024_0_4096) p ⟨1024 + q.val, h⟩ (show 1024 + q.val < 4096 by omega)),
    View.canon_cons_of_not_mem ⟨rO3, mm (F := Ideal) a w4⟩ _ (not_mem_band (o := 3072) (inb := inb_S128x8192_S128x1024_0_3072) p ⟨1024 + q.val, h⟩ (show 1024 + q.val < 3072 by omega)),
    View.canon_cons_of_not_mem ⟨rO2, mm (F := Ideal) a w3⟩ _ (not_mem_band (o := 2048) (inb := inb_S128x8192_S128x1024_0_2048) p ⟨1024 + q.val, h⟩ (show 1024 + q.val < 2048 by omega)),
    ← band_emb (o := 1024) (inb := inb_S128x8192_S128x1024_0_1024) p q h]
  exact View.canon_cons_emb _ _ _ _

/-- Band 2: columns 2048 … 3071 hold the product with weight buffer 3. -/
theorem out9_band2 (a : Vec Ideal S128x512 .f32) (w1 w2 w3 w4 w5 w6 w7 w8 : Vec Ideal S1024x512 .f32) (p : Fin 128) (q : Fin 1024)
    (h : 2048 + q.val < 8192) :
    out9 (F := Ideal) a w1 w2 w3 w4 w5 w6 w7 w8 (ix2 p ⟨2048 + q.val, h⟩) = mm (F := Ideal) a w3 (ix2 p q) := by
  have hq := q.isLt
  unfold out9
  rw [View.canon_cons_of_not_mem ⟨rO7, mm (F := Ideal) a w8⟩ _ (not_mem_band (o := 7168) (inb := inb_S128x8192_S128x1024_0_7168) p ⟨2048 + q.val, h⟩ (show 2048 + q.val < 7168 by omega)),
    View.canon_cons_of_not_mem ⟨rO6, mm (F := Ideal) a w7⟩ _ (not_mem_band (o := 6144) (inb := inb_S128x8192_S128x1024_0_6144) p ⟨2048 + q.val, h⟩ (show 2048 + q.val < 6144 by omega)),
    View.canon_cons_of_not_mem ⟨rO5, mm (F := Ideal) a w6⟩ _ (not_mem_band (o := 5120) (inb := inb_S128x8192_S128x1024_0_5120) p ⟨2048 + q.val, h⟩ (show 2048 + q.val < 5120 by omega)),
    View.canon_cons_of_not_mem ⟨rO4, mm (F := Ideal) a w5⟩ _ (not_mem_band (o := 4096) (inb := inb_S128x8192_S128x1024_0_4096) p ⟨2048 + q.val, h⟩ (show 2048 + q.val < 4096 by omega)),
    View.canon_cons_of_not_mem ⟨rO3, mm (F := Ideal) a w4⟩ _ (not_mem_band (o := 3072) (inb := inb_S128x8192_S128x1024_0_3072) p ⟨2048 + q.val, h⟩ (show 2048 + q.val < 3072 by omega)),
    ← band_emb (o := 2048) (inb := inb_S128x8192_S128x1024_0_2048) p q h]
  exact View.canon_cons_emb _ _ _ _

/-- Band 3: columns 3072 … 4095 hold the product with weight buffer 4. -/
theorem out9_band3 (a : Vec Ideal S128x512 .f32) (w1 w2 w3 w4 w5 w6 w7 w8 : Vec Ideal S1024x512 .f32) (p : Fin 128) (q : Fin 1024)
    (h : 3072 + q.val < 8192) :
    out9 (F := Ideal) a w1 w2 w3 w4 w5 w6 w7 w8 (ix2 p ⟨3072 + q.val, h⟩) = mm (F := Ideal) a w4 (ix2 p q) := by
  have hq := q.isLt
  unfold out9
  rw [View.canon_cons_of_not_mem ⟨rO7, mm (F := Ideal) a w8⟩ _ (not_mem_band (o := 7168) (inb := inb_S128x8192_S128x1024_0_7168) p ⟨3072 + q.val, h⟩ (show 3072 + q.val < 7168 by omega)),
    View.canon_cons_of_not_mem ⟨rO6, mm (F := Ideal) a w7⟩ _ (not_mem_band (o := 6144) (inb := inb_S128x8192_S128x1024_0_6144) p ⟨3072 + q.val, h⟩ (show 3072 + q.val < 6144 by omega)),
    View.canon_cons_of_not_mem ⟨rO5, mm (F := Ideal) a w6⟩ _ (not_mem_band (o := 5120) (inb := inb_S128x8192_S128x1024_0_5120) p ⟨3072 + q.val, h⟩ (show 3072 + q.val < 5120 by omega)),
    View.canon_cons_of_not_mem ⟨rO4, mm (F := Ideal) a w5⟩ _ (not_mem_band (o := 4096) (inb := inb_S128x8192_S128x1024_0_4096) p ⟨3072 + q.val, h⟩ (show 3072 + q.val < 4096 by omega)),
    ← band_emb (o := 3072) (inb := inb_S128x8192_S128x1024_0_3072) p q h]
  exact View.canon_cons_emb _ _ _ _

/-- Band 4: columns 4096 … 5119 hold the product with weight buffer 5. -/
theorem out9_band4 (a : Vec Ideal S128x512 .f32) (w1 w2 w3 w4 w5 w6 w7 w8 : Vec Ideal S1024x512 .f32) (p : Fin 128) (q : Fin 1024)
    (h : 4096 + q.val < 8192) :
    out9 (F := Ideal) a w1 w2 w3 w4 w5 w6 w7 w8 (ix2 p ⟨4096 + q.val, h⟩) = mm (F := Ideal) a w5 (ix2 p q) := by
  have hq := q.isLt
  unfold out9
  rw [View.canon_cons_of_not_mem ⟨rO7, mm (F := Ideal) a w8⟩ _ (not_mem_band (o := 7168) (inb := inb_S128x8192_S128x1024_0_7168) p ⟨4096 + q.val, h⟩ (show 4096 + q.val < 7168 by omega)),
    View.canon_cons_of_not_mem ⟨rO6, mm (F := Ideal) a w7⟩ _ (not_mem_band (o := 6144) (inb := inb_S128x8192_S128x1024_0_6144) p ⟨4096 + q.val, h⟩ (show 4096 + q.val < 6144 by omega)),
    View.canon_cons_of_not_mem ⟨rO5, mm (F := Ideal) a w6⟩ _ (not_mem_band (o := 5120) (inb := inb_S128x8192_S128x1024_0_5120) p ⟨4096 + q.val, h⟩ (show 4096 + q.val < 5120 by omega)),
    ← band_emb (o := 4096) (inb := inb_S128x8192_S128x1024_0_4096) p q h]
  exact View.canon_cons_emb _ _ _ _

/-- Band 5: columns 5120 … 6143 hold the product with weight buffer 6. -/
theorem out9_band5 (a : Vec Ideal S128x512 .f32) (w1 w2 w3 w4 w5 w6 w7 w8 : Vec Ideal S1024x512 .f32) (p : Fin 128) (q : Fin 1024)
    (h : 5120 + q.val < 8192) :
    out9 (F := Ideal) a w1 w2 w3 w4 w5 w6 w7 w8 (ix2 p ⟨5120 + q.val, h⟩) = mm (F := Ideal) a w6 (ix2 p q) := by
  have hq := q.isLt
  unfold out9
  rw [View.canon_cons_of_not_mem ⟨rO7, mm (F := Ideal) a w8⟩ _ (not_mem_band (o := 7168) (inb := inb_S128x8192_S128x1024_0_7168) p ⟨5120 + q.val, h⟩ (show 5120 + q.val < 7168 by omega)),
    View.canon_cons_of_not_mem ⟨rO6, mm (F := Ideal) a w7⟩ _ (not_mem_band (o := 6144) (inb := inb_S128x8192_S128x1024_0_6144) p ⟨5120 + q.val, h⟩ (show 5120 + q.val < 6144 by omega)),
    ← band_emb (o := 5120) (inb := inb_S128x8192_S128x1024_0_5120) p q h]
  exact View.canon_cons_emb _ _ _ _

/-- Band 6: columns 6144 … 7167 hold the product with weight buffer 7. -/
theorem out9_band6 (a : Vec Ideal S128x512 .f32) (w1 w2 w3 w4 w5 w6 w7 w8 : Vec Ideal S1024x512 .f32) (p : Fin 128) (q : Fin 1024)
    (h : 6144 + q.val < 8192) :
    out9 (F := Ideal) a w1 w2 w3 w4 w5 w6 w7 w8 (ix2 p ⟨6144 + q.val, h⟩) = mm (F := Ideal) a w7 (ix2 p q) := by
  have hq := q.isLt
  unfold out9
  rw [View.canon_cons_of_not_mem ⟨rO7, mm (F := Ideal) a w8⟩ _ (not_mem_band (o := 7168) (inb := inb_S128x8192_S128x1024_0_7168) p ⟨6144 + q.val, h⟩ (show 6144 + q.val < 7168 by omega)),
    ← band_emb (o := 6144) (inb := inb_S128x8192_S128x1024_0_6144) p q h]
  exact View.canon_cons_emb _ _ _ _

/-- Band 7: columns 7168 … 8191 hold the product with weight buffer 8. -/
theorem out9_band7 (a : Vec Ideal S128x512 .f32) (w1 w2 w3 w4 w5 w6 w7 w8 : Vec Ideal S1024x512 .f32) (p : Fin 128) (q : Fin 1024)
    (h : 7168 + q.val < 8192) :
    out9 (F := Ideal) a w1 w2 w3 w4 w5 w6 w7 w8 (ix2 p ⟨7168 + q.val, h⟩) = mm (F := Ideal) a w8 (ix2 p q) := by
  have hq := q.isLt
  unfold out9
  rw [← band_emb (o := 7168) (inb := inb_S128x8192_S128x1024_0_7168) p q h]
  exact View.canon_cons_emb _ _ _ _

/-! ## The windows' index maps, over the thirteen points -/

/-- The activation window's block is the whole array at every point. -/
theorem idx_x : ∀ t : Fin cfg0.N, win0_0.index t 0 = 0 ∧ win0_0.index t 1 = 0 :=
  (by decide +kernel : ∀ t : Fin grid0.N, win0_0.index t 0 = 0 ∧ win0_0.index t 1 = 0)
/-- The result's block at point `t` is column block `t`, all 128 rows; 1696 of its columns are inside the array at the
    last point, all 8192 before. -/
theorem idx_o : ∀ t : Fin cfg0.N, win0_9.index t 0 = 0 ∧ win0_9.index t 1 = t.val
    ∧ win0_9.xsize (grid0.coords t) 0 = 128 ∧ win0_9.xsize (grid0.coords t) 1 = (if t.val = 12 then 1696 else 8192) :=
  (by decide +kernel : ∀ t : Fin grid0.N, win0_9.index t 0 = 0 ∧ win0_9.index t 1 = t.val
    ∧ win0_9.xsize (grid0.coords t) 0 = 128 ∧ win0_9.xsize (grid0.coords t) 1 = (if t.val = 12 then 1696 else 8192))
/-- Weight window 1 at point `t`: row block `min (8t + 0) 97`, of which block 97 has 672 rows inside the array. -/
theorem idx_w1 : ∀ t : Fin cfg0.N, win0_1.index t 0 = min (8 * t.val + 0) 97 ∧ win0_1.index t 1 = 0
    ∧ win0_1.xsize (grid0.coords t) 0 = (if 97 ≤ 8 * t.val + 0 then 672 else 1024) ∧ win0_1.xsize (grid0.coords t) 1 = 512 :=
  (by decide +kernel : ∀ t : Fin grid0.N, win0_1.index t 0 = min (8 * t.val + 0) 97 ∧ win0_1.index t 1 = 0
    ∧ win0_1.xsize (grid0.coords t) 0 = (if 97 ≤ 8 * t.val + 0 then 672 else 1024) ∧ win0_1.xsize (grid0.coords t) 1 = 512)
/-- Weight window 2 at point `t`: row block `min (8t + 1) 97`, of which block 97 has 672 rows inside the array. -/
theorem idx_w2 : ∀ t : Fin cfg0.N, win0_2.index t 0 = min (8 * t.val + 1) 97 ∧ win0_2.index t 1 = 0
    ∧ win0_2.xsize (grid0.coords t) 0 = (if 97 ≤ 8 * t.val + 1 then 672 else 1024) ∧ win0_2.xsize (grid0.coords t) 1 = 512 :=
  (by decide +kernel : ∀ t : Fin grid0.N, win0_2.index t 0 = min (8 * t.val + 1) 97 ∧ win0_2.index t 1 = 0
    ∧ win0_2.xsize (grid0.coords t) 0 = (if 97 ≤ 8 * t.val + 1 then 672 else 1024) ∧ win0_2.xsize (grid0.coords t) 1 = 512)
/-- Weight window 3 at point `t`: row block `min (8t + 2) 97`, of which block 97 has 672 rows inside the array. -/
theorem idx_w3 : ∀ t : Fin cfg0.N, win0_3.index t 0 = min (8 * t.val + 2) 97 ∧ win0_3.index t 1 = 0
    ∧ win0_3.xsize (grid0.coords t) 0 = (if 97 ≤ 8 * t.val + 2 then 672 else 1024) ∧ win0_3.xsize (grid0.coords t) 1 = 512 :=
  (by decide +kernel : ∀ t : Fin grid0.N, win0_3.index t 0 = min (8 * t.val + 2) 97 ∧ win0_3.index t 1 = 0
    ∧ win0_3.xsize (grid0.coords t) 0 = (if 97 ≤ 8 * t.val + 2 then 672 else 1024) ∧ win0_3.xsize (grid0.coords t) 1 = 512)
/-- Weight window 4 at point `t`: row block `min (8t + 3) 97`, of which block 97 has 672 rows inside the array. -/
theorem idx_w4 : ∀ t : Fin cfg0.N, win0_4.index t 0 = min (8 * t.val + 3) 97 ∧ win0_4.index t 1 = 0
    ∧ win0_4.xsize (grid0.coords t) 0 = (if 97 ≤ 8 * t.val + 3 then 672 else 1024) ∧ win0_4.xsize (grid0.coords t) 1 = 512 :=
  (by decide +kernel : ∀ t : Fin grid0.N, win0_4.index t 0 = min (8 * t.val + 3) 97 ∧ win0_4.index t 1 = 0
    ∧ win0_4.xsize (grid0.coords t) 0 = (if 97 ≤ 8 * t.val + 3 then 672 else 1024) ∧ win0_4.xsize (grid0.coords t) 1 = 512)
/-- Weight window 5 at point `t`: row block `min (8t + 4) 97`, of which block 97 has 672 rows inside the array. -/
theorem idx_w5 : ∀ t : Fin cfg0.N, win0_5.index t 0 = min (8 * t.val + 4) 97 ∧ win0_5.index t 1 = 0
    ∧ win0_5.xsize (grid0.coords t) 0 = (if 97 ≤ 8 * t.val + 4 then 672 else 1024) ∧ win0_5.xsize (grid0.coords t) 1 = 512 :=
  (by decide +kernel : ∀ t : Fin grid0.N, win0_5.index t 0 = min (8 * t.val + 4) 97 ∧ win0_5.index t 1 = 0
    ∧ win0_5.xsize (grid0.coords t) 0 = (if 97 ≤ 8 * t.val + 4 then 672 else 1024) ∧ win0_5.xsize (grid0.coords t) 1 = 512)
/-- Weight window 6 at point `t`: row block `min (8t + 5) 97`, of which block 97 has 672 rows inside the array. -/
theorem idx_w6 : ∀ t : Fin cfg0.N, win0_6.index t 0 = min (8 * t.val + 5) 97 ∧ win0_6.index t 1 = 0
    ∧ win0_6.xsize (grid0.coords t) 0 = (if 97 ≤ 8 * t.val + 5 then 672 else 1024) ∧ win0_6.xsize (grid0.coords t) 1 = 512 :=
  (by decide +kernel : ∀ t : Fin grid0.N, win0_6.index t 0 = min (8 * t.val + 5) 97 ∧ win0_6.index t 1 = 0
    ∧ win0_6.xsize (grid0.coords t) 0 = (if 97 ≤ 8 * t.val + 5 then 672 else 1024) ∧ win0_6.xsize (grid0.coords t) 1 = 512)
/-- Weight window 7 at point `t`: row block `min (8t + 6) 97`, of which block 97 has 672 rows inside the array. -/
theorem idx_w7 : ∀ t : Fin cfg0.N, win0_7.index t 0 = min (8 * t.val + 6) 97 ∧ win0_7.index t 1 = 0
    ∧ win0_7.xsize (grid0.coords t) 0 = (if 97 ≤ 8 * t.val + 6 then 672 else 1024) ∧ win0_7.xsize (grid0.coords t) 1 = 512 :=
  (by decide +kernel : ∀ t : Fin grid0.N, win0_7.index t 0 = min (8 * t.val + 6) 97 ∧ win0_7.index t 1 = 0
    ∧ win0_7.xsize (grid0.coords t) 0 = (if 97 ≤ 8 * t.val + 6 then 672 else 1024) ∧ win0_7.xsize (grid0.coords t) 1 = 512)
/-- Weight window 8 at point `t`: row block `min (8t + 7) 97`, of which block 97 has 672 rows inside the array. -/
theorem idx_w8 : ∀ t : Fin cfg0.N, win0_8.index t 0 = min (8 * t.val + 7) 97 ∧ win0_8.index t 1 = 0
    ∧ win0_8.xsize (grid0.coords t) 0 = (if 97 ≤ 8 * t.val + 7 then 672 else 1024) ∧ win0_8.xsize (grid0.coords t) 1 = 512 :=
  (by decide +kernel : ∀ t : Fin grid0.N, win0_8.index t 0 = min (8 * t.val + 7) 97 ∧ win0_8.index t 1 = 0
    ∧ win0_8.xsize (grid0.coords t) 0 = (if 97 ≤ 8 * t.val + 7 then 672 else 1024) ∧ win0_8.xsize (grid0.coords t) 1 = 512)

/-! ## The staged blocks at an index -/

/-- A filled block at an index the fetch moves is the fetched block there. -/
theorem fill_of_lt {Gr : Pipeline.Grid} (W : Window sig Gr) {α : Type} (i : Gr.Coords) (d : W.block.Idx → α) (g : (W.xblock i).Idx → α)
    (j : W.block.Idx) (h : ∀ a, (j a).val < W.xsize i a) : W.fill i d g j = g fun a => ⟨(j a).val, h a⟩ := by
  unfold Window.fill; rw [dif_pos ((W.moved_iff i j).mpr h)]

/-- The activation window's block is x itself. -/
theorem x_row (c : Dev nD) (t : Fin cfg0.N) (p : Fin 128) (k : Fin 512) :
    iblk (F := Ideal) m c 0 t (ix2 p k) = V m c main_arg0 (ix2 p k) := by
  have hx := idx_x t
  show V m c main_arg0 ((win0_0.blk t).view.emb (ix2 p k)) = _
  refine congrArg _ (funext fun a => Fin.ext ?_)
  match a with
  | ⟨0, _⟩ => show win0_0.index t 0 * 128 + 1 * p.val = p.val; rw [hx.1]; omega
  | ⟨1, _⟩ => show win0_0.index t 1 * 512 + 1 * k.val = k.val; rw [hx.2]; omega

/-- Staged row `q` of weight window 1, when inside the array, is row `index · 1024 + q` of w, whatever fills the rest. -/
theorem wst_row1 (c : Dev nD) (t : Fin cfg0.N) (d : S1024x512.Idx → Elt Ideal .f32) (q : Fin 1024) (k : Fin 512) (r : Fin 100000)
    (hq : q.val < win0_1.xsize (grid0.coords t) 0) (hr : r.val = win0_1.index t 0 * 1024 + q.val) :
    wst (F := Ideal) m c 1 t d (ix2 q k) = V m c main_arg1 (ix2 r k) := by
  have hx := idx_w1 t
  have hm : ∀ a, ((ix2 q k : S1024x512.Idx) a).val < win0_1.xsize (grid0.coords t) a := fun a => by
    match a with
    | ⟨0, _⟩ => exact hq
    | ⟨1, _⟩ => show k.val < win0_1.xsize (grid0.coords t) 1; rw [hx.2.2.2]; exact k.isLt
  show win0_1.fill (grid0.coords t) d (iblk (F := Ideal) m c 1 t) (ix2 q k) = _
  rw [fill_of_lt win0_1 (grid0.coords t) d (iblk (F := Ideal) m c 1 t) (ix2 q k) hm]
  show V m c main_arg1 ((win0_1.blk t).view.emb _) = V m c main_arg1 (ix2 r k)
  refine congrArg _ (funext fun a => Fin.ext ?_)
  match a with
  | ⟨0, _⟩ => show win0_1.index t 0 * 1024 + 1 * q.val = r.val; omega
  | ⟨1, _⟩ => show win0_1.index t 1 * 512 + 1 * k.val = k.val; rw [hx.2.1]; omega

/-- Staged row `q` of weight window 2, when inside the array, is row `index · 1024 + q` of w, whatever fills the rest. -/
theorem wst_row2 (c : Dev nD) (t : Fin cfg0.N) (d : S1024x512.Idx → Elt Ideal .f32) (q : Fin 1024) (k : Fin 512) (r : Fin 100000)
    (hq : q.val < win0_2.xsize (grid0.coords t) 0) (hr : r.val = win0_2.index t 0 * 1024 + q.val) :
    wst (F := Ideal) m c 2 t d (ix2 q k) = V m c main_arg1 (ix2 r k) := by
  have hx := idx_w2 t
  have hm : ∀ a, ((ix2 q k : S1024x512.Idx) a).val < win0_2.xsize (grid0.coords t) a := fun a => by
    match a with
    | ⟨0, _⟩ => exact hq
    | ⟨1, _⟩ => show k.val < win0_2.xsize (grid0.coords t) 1; rw [hx.2.2.2]; exact k.isLt
  show win0_2.fill (grid0.coords t) d (iblk (F := Ideal) m c 2 t) (ix2 q k) = _
  rw [fill_of_lt win0_2 (grid0.coords t) d (iblk (F := Ideal) m c 2 t) (ix2 q k) hm]
  show V m c main_arg1 ((win0_2.blk t).view.emb _) = V m c main_arg1 (ix2 r k)
  refine congrArg _ (funext fun a => Fin.ext ?_)
  match a with
  | ⟨0, _⟩ => show win0_2.index t 0 * 1024 + 1 * q.val = r.val; omega
  | ⟨1, _⟩ => show win0_2.index t 1 * 512 + 1 * k.val = k.val; rw [hx.2.1]; omega

/-- Staged row `q` of weight window 3, when inside the array, is row `index · 1024 + q` of w, whatever fills the rest. -/
theorem wst_row3 (c : Dev nD) (t : Fin cfg0.N) (d : S1024x512.Idx → Elt Ideal .f32) (q : Fin 1024) (k : Fin 512) (r : Fin 100000)
    (hq : q.val < win0_3.xsize (grid0.coords t) 0) (hr : r.val = win0_3.index t 0 * 1024 + q.val) :
    wst (F := Ideal) m c 3 t d (ix2 q k) = V m c main_arg1 (ix2 r k) := by
  have hx := idx_w3 t
  have hm : ∀ a, ((ix2 q k : S1024x512.Idx) a).val < win0_3.xsize (grid0.coords t) a := fun a => by
    match a with
    | ⟨0, _⟩ => exact hq
    | ⟨1, _⟩ => show k.val < win0_3.xsize (grid0.coords t) 1; rw [hx.2.2.2]; exact k.isLt
  show win0_3.fill (grid0.coords t) d (iblk (F := Ideal) m c 3 t) (ix2 q k) = _
  rw [fill_of_lt win0_3 (grid0.coords t) d (iblk (F := Ideal) m c 3 t) (ix2 q k) hm]
  show V m c main_arg1 ((win0_3.blk t).view.emb _) = V m c main_arg1 (ix2 r k)
  refine congrArg _ (funext fun a => Fin.ext ?_)
  match a with
  | ⟨0, _⟩ => show win0_3.index t 0 * 1024 + 1 * q.val = r.val; omega
  | ⟨1, _⟩ => show win0_3.index t 1 * 512 + 1 * k.val = k.val; rw [hx.2.1]; omega

/-- Staged row `q` of weight window 4, when inside the array, is row `index · 1024 + q` of w, whatever fills the rest. -/
theorem wst_row4 (c : Dev nD) (t : Fin cfg0.N) (d : S1024x512.Idx → Elt Ideal .f32) (q : Fin 1024) (k : Fin 512) (r : Fin 100000)
    (hq : q.val < win0_4.xsize (grid0.coords t) 0) (hr : r.val = win0_4.index t 0 * 1024 + q.val) :
    wst (F := Ideal) m c 4 t d (ix2 q k) = V m c main_arg1 (ix2 r k) := by
  have hx := idx_w4 t
  have hm : ∀ a, ((ix2 q k : S1024x512.Idx) a).val < win0_4.xsize (grid0.coords t) a := fun a => by
    match a with
    | ⟨0, _⟩ => exact hq
    | ⟨1, _⟩ => show k.val < win0_4.xsize (grid0.coords t) 1; rw [hx.2.2.2]; exact k.isLt
  show win0_4.fill (grid0.coords t) d (iblk (F := Ideal) m c 4 t) (ix2 q k) = _
  rw [fill_of_lt win0_4 (grid0.coords t) d (iblk (F := Ideal) m c 4 t) (ix2 q k) hm]
  show V m c main_arg1 ((win0_4.blk t).view.emb _) = V m c main_arg1 (ix2 r k)
  refine congrArg _ (funext fun a => Fin.ext ?_)
  match a with
  | ⟨0, _⟩ => show win0_4.index t 0 * 1024 + 1 * q.val = r.val; omega
  | ⟨1, _⟩ => show win0_4.index t 1 * 512 + 1 * k.val = k.val; rw [hx.2.1]; omega

/-- Staged row `q` of weight window 5, when inside the array, is row `index · 1024 + q` of w, whatever fills the rest. -/
theorem wst_row5 (c : Dev nD) (t : Fin cfg0.N) (d : S1024x512.Idx → Elt Ideal .f32) (q : Fin 1024) (k : Fin 512) (r : Fin 100000)
    (hq : q.val < win0_5.xsize (grid0.coords t) 0) (hr : r.val = win0_5.index t 0 * 1024 + q.val) :
    wst (F := Ideal) m c 5 t d (ix2 q k) = V m c main_arg1 (ix2 r k) := by
  have hx := idx_w5 t
  have hm : ∀ a, ((ix2 q k : S1024x512.Idx) a).val < win0_5.xsize (grid0.coords t) a := fun a => by
    match a with
    | ⟨0, _⟩ => exact hq
    | ⟨1, _⟩ => show k.val < win0_5.xsize (grid0.coords t) 1; rw [hx.2.2.2]; exact k.isLt
  show win0_5.fill (grid0.coords t) d (iblk (F := Ideal) m c 5 t) (ix2 q k) = _
  rw [fill_of_lt win0_5 (grid0.coords t) d (iblk (F := Ideal) m c 5 t) (ix2 q k) hm]
  show V m c main_arg1 ((win0_5.blk t).view.emb _) = V m c main_arg1 (ix2 r k)
  refine congrArg _ (funext fun a => Fin.ext ?_)
  match a with
  | ⟨0, _⟩ => show win0_5.index t 0 * 1024 + 1 * q.val = r.val; omega
  | ⟨1, _⟩ => show win0_5.index t 1 * 512 + 1 * k.val = k.val; rw [hx.2.1]; omega

/-- Staged row `q` of weight window 6, when inside the array, is row `index · 1024 + q` of w, whatever fills the rest. -/
theorem wst_row6 (c : Dev nD) (t : Fin cfg0.N) (d : S1024x512.Idx → Elt Ideal .f32) (q : Fin 1024) (k : Fin 512) (r : Fin 100000)
    (hq : q.val < win0_6.xsize (grid0.coords t) 0) (hr : r.val = win0_6.index t 0 * 1024 + q.val) :
    wst (F := Ideal) m c 6 t d (ix2 q k) = V m c main_arg1 (ix2 r k) := by
  have hx := idx_w6 t
  have hm : ∀ a, ((ix2 q k : S1024x512.Idx) a).val < win0_6.xsize (grid0.coords t) a := fun a => by
    match a with
    | ⟨0, _⟩ => exact hq
    | ⟨1, _⟩ => show k.val < win0_6.xsize (grid0.coords t) 1; rw [hx.2.2.2]; exact k.isLt
  show win0_6.fill (grid0.coords t) d (iblk (F := Ideal) m c 6 t) (ix2 q k) = _
  rw [fill_of_lt win0_6 (grid0.coords t) d (iblk (F := Ideal) m c 6 t) (ix2 q k) hm]
  show V m c main_arg1 ((win0_6.blk t).view.emb _) = V m c main_arg1 (ix2 r k)
  refine congrArg _ (funext fun a => Fin.ext ?_)
  match a with
  | ⟨0, _⟩ => show win0_6.index t 0 * 1024 + 1 * q.val = r.val; omega
  | ⟨1, _⟩ => show win0_6.index t 1 * 512 + 1 * k.val = k.val; rw [hx.2.1]; omega

/-- Staged row `q` of weight window 7, when inside the array, is row `index · 1024 + q` of w, whatever fills the rest. -/
theorem wst_row7 (c : Dev nD) (t : Fin cfg0.N) (d : S1024x512.Idx → Elt Ideal .f32) (q : Fin 1024) (k : Fin 512) (r : Fin 100000)
    (hq : q.val < win0_7.xsize (grid0.coords t) 0) (hr : r.val = win0_7.index t 0 * 1024 + q.val) :
    wst (F := Ideal) m c 7 t d (ix2 q k) = V m c main_arg1 (ix2 r k) := by
  have hx := idx_w7 t
  have hm : ∀ a, ((ix2 q k : S1024x512.Idx) a).val < win0_7.xsize (grid0.coords t) a := fun a => by
    match a with
    | ⟨0, _⟩ => exact hq
    | ⟨1, _⟩ => show k.val < win0_7.xsize (grid0.coords t) 1; rw [hx.2.2.2]; exact k.isLt
  show win0_7.fill (grid0.coords t) d (iblk (F := Ideal) m c 7 t) (ix2 q k) = _
  rw [fill_of_lt win0_7 (grid0.coords t) d (iblk (F := Ideal) m c 7 t) (ix2 q k) hm]
  show V m c main_arg1 ((win0_7.blk t).view.emb _) = V m c main_arg1 (ix2 r k)
  refine congrArg _ (funext fun a => Fin.ext ?_)
  match a with
  | ⟨0, _⟩ => show win0_7.index t 0 * 1024 + 1 * q.val = r.val; omega
  | ⟨1, _⟩ => show win0_7.index t 1 * 512 + 1 * k.val = k.val; rw [hx.2.1]; omega

/-- Staged row `q` of weight window 8, when inside the array, is row `index · 1024 + q` of w, whatever fills the rest. -/
theorem wst_row8 (c : Dev nD) (t : Fin cfg0.N) (d : S1024x512.Idx → Elt Ideal .f32) (q : Fin 1024) (k : Fin 512) (r : Fin 100000)
    (hq : q.val < win0_8.xsize (grid0.coords t) 0) (hr : r.val = win0_8.index t 0 * 1024 + q.val) :
    wst (F := Ideal) m c 8 t d (ix2 q k) = V m c main_arg1 (ix2 r k) := by
  have hx := idx_w8 t
  have hm : ∀ a, ((ix2 q k : S1024x512.Idx) a).val < win0_8.xsize (grid0.coords t) a := fun a => by
    match a with
    | ⟨0, _⟩ => exact hq
    | ⟨1, _⟩ => show k.val < win0_8.xsize (grid0.coords t) 1; rw [hx.2.2.2]; exact k.isLt
  show win0_8.fill (grid0.coords t) d (iblk (F := Ideal) m c 8 t) (ix2 q k) = _
  rw [fill_of_lt win0_8 (grid0.coords t) d (iblk (F := Ideal) m c 8 t) (ix2 q k) hm]
  show V m c main_arg1 ((win0_8.blk t).view.emb _) = V m c main_arg1 (ix2 r k)
  refine congrArg _ (funext fun a => Fin.ext ?_)
  match a with
  | ⟨0, _⟩ => show win0_8.index t 0 * 1024 + 1 * q.val = r.val; omega
  | ⟨1, _⟩ => show win0_8.index t 1 * 512 + 1 * k.val = k.val; rw [hx.2.1]; omega

/-! ## The result's staging buffer against the specification -/

/-- Entry (p, cl) of the result's staging buffer after the body, for a column whose array column `8192·t + cl` is below
    100000: the inner product of row p of x with row `8192·t + cl` of w. Column `cl` lies in band `cl / 1024`, whose
    weight window has block index `8t + cl / 1024 ≤ 97`, unclamped, and its staged row `cl mod 1024` is inside the array. -/
theorem out9_entry (c : Dev nD) (t : Fin cfg0.N) (d1 d2 d3 d4 d5 d6 d7 d8 : S1024x512.Idx → Elt Ideal .f32) (p : Fin 128) (cl : Fin 8192)
    (r : Fin 100000) (hr : r.val = 8192 * t.val + cl.val) :
    out9 (F := Ideal) (iblk m c 0 t) (wst m c 1 t d1) (wst m c 2 t d2) (wst m c 3 t d3) (wst m c 4 t d4)
        (wst m c 5 t d5) (wst m c 6 t d6) (wst m c 7 t d7) (wst m c 8 t d8) (ix2 p cl)
      = G m c (ix2 p r) := by
  have hc := cl.isLt
  have hrl := r.isLt
  have ht : t.val < 13 := lt_of_lt_of_eq t.isLt N_0
  rcases (show cl.val < 1024 ∨ (1024 ≤ cl.val ∧ cl.val < 2048) ∨ (2048 ≤ cl.val ∧ cl.val < 3072) ∨ (3072 ≤ cl.val ∧ cl.val < 4096)
      ∨ (4096 ≤ cl.val ∧ cl.val < 5120) ∨ (5120 ≤ cl.val ∧ cl.val < 6144) ∨ (6144 ≤ cl.val ∧ cl.val < 7168) ∨ 7168 ≤ cl.val by omega)
    with h | h | h | h | h | h | h | h
  · -- band 0: weight window 1
    have hq : cl.val - 0 < 1024 := by omega
    have e : cl = ⟨0 + (⟨cl.val - 0, hq⟩ : Fin 1024).val, by show 0 + (cl.val - 0) < 8192; omega⟩ :=
      Fin.ext (by show cl.val = 0 + (cl.val - 0); omega)
    rw [e, out9_band0, mm_apply]
    exact Finset.sum_congr rfl fun k _ => congrArg₂ (fun u v : EReal => u * v) (x_row m c t p k)
      (wst_row1 m c t d1 ⟨cl.val - 0, hq⟩ k r
        (by rw [(idx_w1 t).2.2.1]; show cl.val - 0 < _; split <;> omega)
        (by rw [(idx_w1 t).1]; show r.val = min _ 97 * 1024 + (cl.val - 0); omega))
  · -- band 1: weight window 2
    have hq : cl.val - 1024 < 1024 := by omega
    have e : cl = ⟨1024 + (⟨cl.val - 1024, hq⟩ : Fin 1024).val, by show 1024 + (cl.val - 1024) < 8192; omega⟩ :=
      Fin.ext (by show cl.val = 1024 + (cl.val - 1024); omega)
    rw [e, out9_band1, mm_apply]
    exact Finset.sum_congr rfl fun k _ => congrArg₂ (fun u v : EReal => u * v) (x_row m c t p k)
      (wst_row2 m c t d2 ⟨cl.val - 1024, hq⟩ k r
        (by rw [(idx_w2 t).2.2.1]; show cl.val - 1024 < _; split <;> omega)
        (by rw [(idx_w2 t).1]; show r.val = min _ 97 * 1024 + (cl.val - 1024); omega))
  · -- band 2: weight window 3
    have hq : cl.val - 2048 < 1024 := by omega
    have e : cl = ⟨2048 + (⟨cl.val - 2048, hq⟩ : Fin 1024).val, by show 2048 + (cl.val - 2048) < 8192; omega⟩ :=
      Fin.ext (by show cl.val = 2048 + (cl.val - 2048); omega)
    rw [e, out9_band2, mm_apply]
    exact Finset.sum_congr rfl fun k _ => congrArg₂ (fun u v : EReal => u * v) (x_row m c t p k)
      (wst_row3 m c t d3 ⟨cl.val - 2048, hq⟩ k r
        (by rw [(idx_w3 t).2.2.1]; show cl.val - 2048 < _; split <;> omega)
        (by rw [(idx_w3 t).1]; show r.val = min _ 97 * 1024 + (cl.val - 2048); omega))
  · -- band 3: weight window 4
    have hq : cl.val - 3072 < 1024 := by omega
    have e : cl = ⟨3072 + (⟨cl.val - 3072, hq⟩ : Fin 1024).val, by show 3072 + (cl.val - 3072) < 8192; omega⟩ :=
      Fin.ext (by show cl.val = 3072 + (cl.val - 3072); omega)
    rw [e, out9_band3, mm_apply]
    exact Finset.sum_congr rfl fun k _ => congrArg₂ (fun u v : EReal => u * v) (x_row m c t p k)
      (wst_row4 m c t d4 ⟨cl.val - 3072, hq⟩ k r
        (by rw [(idx_w4 t).2.2.1]; show cl.val - 3072 < _; split <;> omega)
        (by rw [(idx_w4 t).1]; show r.val = min _ 97 * 1024 + (cl.val - 3072); omega))
  · -- band 4: weight window 5
    have hq : cl.val - 4096 < 1024 := by omega
    have e : cl = ⟨4096 + (⟨cl.val - 4096, hq⟩ : Fin 1024).val, by show 4096 + (cl.val - 4096) < 8192; omega⟩ :=
      Fin.ext (by show cl.val = 4096 + (cl.val - 4096); omega)
    rw [e, out9_band4, mm_apply]
    exact Finset.sum_congr rfl fun k _ => congrArg₂ (fun u v : EReal => u * v) (x_row m c t p k)
      (wst_row5 m c t d5 ⟨cl.val - 4096, hq⟩ k r
        (by rw [(idx_w5 t).2.2.1]; show cl.val - 4096 < _; split <;> omega)
        (by rw [(idx_w5 t).1]; show r.val = min _ 97 * 1024 + (cl.val - 4096); omega))
  · -- band 5: weight window 6
    have hq : cl.val - 5120 < 1024 := by omega
    have e : cl = ⟨5120 + (⟨cl.val - 5120, hq⟩ : Fin 1024).val, by show 5120 + (cl.val - 5120) < 8192; omega⟩ :=
      Fin.ext (by show cl.val = 5120 + (cl.val - 5120); omega)
    rw [e, out9_band5, mm_apply]
    exact Finset.sum_congr rfl fun k _ => congrArg₂ (fun u v : EReal => u * v) (x_row m c t p k)
      (wst_row6 m c t d6 ⟨cl.val - 5120, hq⟩ k r
        (by rw [(idx_w6 t).2.2.1]; show cl.val - 5120 < _; split <;> omega)
        (by rw [(idx_w6 t).1]; show r.val = min _ 97 * 1024 + (cl.val - 5120); omega))
  · -- band 6: weight window 7
    have hq : cl.val - 6144 < 1024 := by omega
    have e : cl = ⟨6144 + (⟨cl.val - 6144, hq⟩ : Fin 1024).val, by show 6144 + (cl.val - 6144) < 8192; omega⟩ :=
      Fin.ext (by show cl.val = 6144 + (cl.val - 6144); omega)
    rw [e, out9_band6, mm_apply]
    exact Finset.sum_congr rfl fun k _ => congrArg₂ (fun u v : EReal => u * v) (x_row m c t p k)
      (wst_row7 m c t d7 ⟨cl.val - 6144, hq⟩ k r
        (by rw [(idx_w7 t).2.2.1]; show cl.val - 6144 < _; split <;> omega)
        (by rw [(idx_w7 t).1]; show r.val = min _ 97 * 1024 + (cl.val - 6144); omega))
  · -- band 7: weight window 8
    have hq : cl.val - 7168 < 1024 := by omega
    have e : cl = ⟨7168 + (⟨cl.val - 7168, hq⟩ : Fin 1024).val, by show 7168 + (cl.val - 7168) < 8192; omega⟩ :=
      Fin.ext (by show cl.val = 7168 + (cl.val - 7168); omega)
    rw [e, out9_band7, mm_apply]
    exact Finset.sum_congr rfl fun k _ => congrArg₂ (fun u v : EReal => u * v) (x_row m c t p k)
      (wst_row8 m c t d8 ⟨cl.val - 7168, hq⟩ k r
        (by rw [(idx_w8 t).2.2.1]; show cl.val - 7168 < _; split <;> omega)
        (by rw [(idx_w8 t).1]; show r.val = min _ 97 * 1024 + (cl.val - 7168); omega))

/-- At grid point `t`, the part of the result's staging buffer that the write-back moves (columns of the block that
    lie inside the array) holds the specification read through the block: column `col` of band `j` is the product of
    x with staged weight row `col mod 1024` of window `j + 1`, a row inside the weight array — row
    `8192·t + col` of w, since the clamp of the block index at 97 does not bite on a column below 100000 — and so
    does not depend on what the rows past the array's end (`d1` … `d8`) hold. -/
theorem flushed9_eq (c : Dev nD) (t : Fin cfg0.N) (d1 d2 d3 d4 d5 d6 d7 d8 : S1024x512.Idx → Elt Ideal .f32) :
    win0_9.cut (grid0.coords t)
        (out9 (iblk m c 0 t) (wst m c 1 t d1) (wst m c 2 t d2) (wst m c 3 t d3) (wst m c 4 t d4)
          (wst m c 5 t d5) (wst m c 6 t d6) (wst m c 7 t d7) (wst m c 8 t d8))
      = (win0_9.blk t).view.read (Elt Ideal) (G m c) := by
  funext y
  have ho := idx_o t
  have ht : t.val < 13 := lt_of_lt_of_eq t.isLt N_0
  have hy0 : (y 0).val < 128 := by
    have h : (y 0).val < win0_9.xsize (grid0.coords t) 0 := (y 0).isLt
    rw [ho.2.2.1] at h; exact h
  have hy1 : 8192 * t.val + (y 1).val < 100000 ∧ (y 1).val < 8192 := by
    have h : (y 1).val < win0_9.xsize (grid0.coords t) 1 := (y 1).isLt
    rw [ho.2.2.2] at h; split at h <;> omega
  have e1 : win0_9.xinj (grid0.coords t) y = (ix2 ⟨(y 0).val, hy0⟩ ⟨(y 1).val, hy1.2⟩ : S128x8192.Idx) :=
    funext fun a => Fin.ext (by
      match a with
      | ⟨0, _⟩ => rfl
      | ⟨1, _⟩ => rfl)
  have e2 : (win0_9.blk t).view.emb y = (ix2 ⟨(y 0).val, hy0⟩ ⟨8192 * t.val + (y 1).val, hy1.1⟩ : S128x100000.Idx) :=
    funext fun a => Fin.ext (by
      match a with
      | ⟨0, _⟩ => show win0_9.index t 0 * 128 + 1 * (y 0).val = (y 0).val; rw [ho.1]; omega
      | ⟨1, _⟩ => show win0_9.index t 1 * 8192 + 1 * (y 1).val = 8192 * t.val + (y 1).val; rw [ho.2.1]; omega)
  show out9 (F := Ideal) _ _ _ _ _ _ _ _ _ (win0_9.xinj (grid0.coords t) y) = G m c ((win0_9.blk t).view.emb y)
  rw [e1, e2]
  exact out9_entry m c t d1 d2 d3 d4 d5 d6 d7 d8 _ _ ⟨8192 * t.val + (y 1).val, hy1.1⟩ rfl

end Cert.KernelIdeal.Hand

end
-- ==== Proof.KI.Body.lean ====
/-
  The body obligation of the idealized kernel: at every grid point, from the staging buffers as the pipeline hands
  them over, the body runs and leaves them as the proof data says.
-/
import proofs.«135577_g40484361732593_fold_wed_c4_616_37_alg».proof.Proof.KI.Data
import proofs.«135577_g40484361732593_fold_wed_c4_616_37_alg».proof.Proof.KI.SoundKernel
import proofs.«135577_g40484361732593_fold_wed_c4_616_37_alg».proof.Proof.KI.Flushed
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ)

/-! ## What the body finds in each staging buffer -/

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wst m c 1 t zf := by dsimp only [dats]
theorem after_2 (c : Dev nD) (t : Fin cfg0.N) : (dats m 0 c).after 2 t = wst m c 2 t zf := by dsimp only [dats]
theorem after_3 (c : Dev nD) (t : Fin cfg0.N) : (dats m 0 c).after 3 t = wst m c 3 t zf := by dsimp only [dats]
theorem after_4 (c : Dev nD) (t : Fin cfg0.N) : (dats m 0 c).after 4 t = wst m c 4 t zf := by dsimp only [dats]
theorem after_5 (c : Dev nD) (t : Fin cfg0.N) : (dats m 0 c).after 5 t = wst m c 5 t zf := by dsimp only [dats]
theorem after_6 (c : Dev nD) (t : Fin cfg0.N) : (dats m 0 c).after 6 t = wst m c 6 t zf := by dsimp only [dats]
theorem after_7 (c : Dev nD) (t : Fin cfg0.N) : (dats m 0 c).after 7 t = wst m c 7 t zf := by dsimp only [dats]
theorem after_8 (c : Dev nD) (t : Fin cfg0.N) : (dats m 0 c).after 8 t = wst m c 8 t zf := by dsimp only [dats]
theorem after_9 (c : Dev nD) (t : Fin cfg0.N) : (dats m 0 c).after 9 t
    = out9 (iblk m c 0 t) (wst m c 1 t zf) (wst m c 2 t zf) (wst m c 3 t zf) (wst m c 4 t zf)
        (wst m c 5 t zf) (wst m c 6 t zf) (wst m c 7 t zf) (wst m c 8 t zf) := by dsimp only [dats]

/-- The activation window is fetched once and its block never moves: its buffer holds x at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- A weight window is fetched at every point: its buffer holds its block, the rows past the array's end anything. -/
theorem before_1 (c : Dev nD) (t : Fin cfg0.N) (d) : (dats m 0 c).before 1 t d = wst m c 1 t d :=
  ((dats m 0 c).before_fetched 1 t (fetch0_1 t) d).trans (by unfold Dat.fetched Dat.blockOf; rw [A_eq]; rfl)
theorem before_2 (c : Dev nD) (t : Fin cfg0.N) (d) : (dats m 0 c).before 2 t d = wst m c 2 t d :=
  ((dats m 0 c).before_fetched 2 t (fetch0_2 t) d).trans (by unfold Dat.fetched Dat.blockOf; rw [A_eq]; rfl)
theorem before_3 (c : Dev nD) (t : Fin cfg0.N) (d) : (dats m 0 c).before 3 t d = wst m c 3 t d :=
  ((dats m 0 c).before_fetched 3 t (fetch0_3 t) d).trans (by unfold Dat.fetched Dat.blockOf; rw [A_eq]; rfl)
theorem before_4 (c : Dev nD) (t : Fin cfg0.N) (d) : (dats m 0 c).before 4 t d = wst m c 4 t d :=
  ((dats m 0 c).before_fetched 4 t (fetch0_4 t) d).trans (by unfold Dat.fetched Dat.blockOf; rw [A_eq]; rfl)
theorem before_5 (c : Dev nD) (t : Fin cfg0.N) (d) : (dats m 0 c).before 5 t d = wst m c 5 t d :=
  ((dats m 0 c).before_fetched 5 t (fetch0_5 t) d).trans (by unfold Dat.fetched Dat.blockOf; rw [A_eq]; rfl)
theorem before_6 (c : Dev nD) (t : Fin cfg0.N) (d) : (dats m 0 c).before 6 t d = wst m c 6 t d :=
  ((dats m 0 c).before_fetched 6 t (fetch0_6 t) d).trans (by unfold Dat.fetched Dat.blockOf; rw [A_eq]; rfl)
theorem before_7 (c : Dev nD) (t : Fin cfg0.N) (d) : (dats m 0 c).before 7 t d = wst m c 7 t d :=
  ((dats m 0 c).before_fetched 7 t (fetch0_7 t) d).trans (by unfold Dat.fetched Dat.blockOf; rw [A_eq]; rfl)
theorem before_8 (c : Dev nD) (t : Fin cfg0.N) (d) : (dats m 0 c).before 8 t d = wst m c 8 t d :=
  ((dats m 0 c).before_fetched 8 t (fetch0_8 t) d).trans (by unfold Dat.fetched Dat.blockOf; rw [A_eq]; rfl)

/-- The result's window is written back at every point, so its buffer is fresh at every point. -/
theorem before_9 (c : Dev nD) (t : Fin cfg0.N) (d) : (dats m 0 c).before 9 t d = d :=
  (dats m 0 c).before_out_reset 9 rfl t
    (by by_cases h : t.val = 0
        · exact .inl h
        · exact .inr ⟨h, flush0_9 _⟩) d

/-! ## The body obligation -/

/-- The library's body obligation at every point: each input's buffer arrives holding its block (a weight window's
    rows past the array's end at anything), the result's at anything; the body leaves the inputs as they were and
    the result's buffer at the eight products, which on the columns inside the array are the specification's — all
    the loose obligation states of it. -/
theorem body_obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4,
    before_5 m c t d5, before_6 m c t d6, before_7 m c t d7, before_8 m c t d8, before_9 m c t d9]
  iapply (sound_kernel (F := Ideal) c Set.univ (grid0.coords t) _ _ _ _ _ _ _ _ _ _ _ _ _ _ _ _ _ _ _ _
    (iblk m c 0 t) (wst m c 1 t d1) (wst m c 2 t d2) (wst m c 3 t d3) (wst m c 4 t d4)
    (wst m c 5 t d5) (wst m c 6 t d6) (wst m c 7 t d7) (wst m c 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  iintro ⟨H0, H1, H2, H3, H4, H5, H6, H7, H8, H9⟩
  isplitl [HΦ]; · iexact HΦ
  isplitl [Ho]; · iexact Ho
  isplitl [H0]; · rw [after_0]; iexact H0
  isplitl [H1]; · iexists d1; rw [after_1, Window.cut_fill]; iexact H1
  isplitl [H2]; · iexists d2; rw [after_2, Window.cut_fill]; iexact H2
  isplitl [H3]; · iexists d3; rw [after_3, Window.cut_fill]; iexact H3
  isplitl [H4]; · iexists d4; rw [after_4, Window.cut_fill]; iexact H4
  isplitl [H5]; · iexists d5; rw [after_5, Window.cut_fill]; iexact H5
  isplitl [H6]; · iexists d6; rw [after_6, Window.cut_fill]; iexact H6
  isplitl [H7]; · iexists d7; rw [after_7, Window.cut_fill]; iexact H7
  isplitl [H8]; · iexists d8; rw [after_8, Window.cut_fill]; iexact H8
  iexists (out9 (iblk m c 0 t) (wst m c 1 t d1) (wst m c 2 t d2) (wst m c 3 t d3) (wst m c 4 t d4)
    (wst m c 5 t d5) (wst m c 6 t d6) (wst m c 7 t d7) (wst m c 8 t d8))
  rw [after_9, flushed9_eq m c t zf zf zf zf zf zf zf zf, ← flushed9_eq m c t d1 d2 d3 d4 d5 d6 d7 d8, Window.fill_cut]
  iexact H9

end Cert.KernelIdeal.Hand

end
-- ==== Proof.KI.Split.lean ====
/-
  The weight array, held whole at the region's entry, dealt among the eight windows that read it.
-/
import proofs.«135577_g40484361732593_fold_wed_c4_616_37_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- One points-to, its share halved three times: the eight eighths, side by side. -/
theorem pointsTo_eighths {ℓ : Loc nD τ sig} (I : Finset (Idx ℓ)) (q : PosShare TreeShare) (f : Buf (Elt F) ℓ) :
    (ℓ ↦[I]{q} f : sProp 𝕄) ⊢
      iprop((ℓ ↦[I]{q.left.left.left} f) ∗ (ℓ ↦[I]{q.left.left.right} f) ∗ (ℓ ↦[I]{q.left.right.left} f) ∗ (ℓ ↦[I]{q.left.right.right} f)
        ∗ (ℓ ↦[I]{q.right.left.left} f) ∗ (ℓ ↦[I]{q.right.left.right} f) ∗ (ℓ ↦[I]{q.right.right.left} f) ∗ (ℓ ↦[I]{q.right.right.right} f)) := by
  iintro H
  ihave H := (pointsTo_share (PosShare.mem_left_op_right q)).1 $$ H
  icases H with ⟨HL, HR⟩
  ihave HL := (pointsTo_share (PosShare.mem_left_op_right q.left)).1 $$ HL
  icases HL with ⟨HLL, HLR⟩
  ihave HR := (pointsTo_share (PosShare.mem_left_op_right q.right)).1 $$ HR
  icases HR with ⟨HRL, HRR⟩
  ihave HLL := (pointsTo_share (PosShare.mem_left_op_right q.left.left)).1 $$ HLL
  icases HLL with ⟨H1, H2⟩
  ihave HLR := (pointsTo_share (PosShare.mem_left_op_right q.left.right)).1 $$ HLR
  icases HLR with ⟨H3, H4⟩
  ihave HRL := (pointsTo_share (PosShare.mem_left_op_right q.right.left)).1 $$ HRL
  icases HRL with ⟨H5, H6⟩
  ihave HRR := (pointsTo_share (PosShare.mem_left_op_right q.right.right)).1 $$ HRR
  icases HRR with ⟨H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The distinct buffers behind the ten windows' arrays: the activations, the weights, the result. -/
theorem arrRef_image : Finset.univ.image (Pipeline.arrRef spec0) = {main_arg0, main_arg1, main_v0} := by
  decide

/-- Window `w`'s array is a whole buffer: its points-to is the plain one on the buffer behind it. -/
theorem win_arr (c : Dev nD) (w : Fin 10) :
    ((cfg0.win w).arr.view.loc (c.tc : Thread nD τ) ↦[(cfg0.win w).arr.view.set]{(dats m 0 c).share w} (dats m 0 c).A w : sProp 𝕄)
      = ((c.tc : Thread nD τ).loc (Pipeline.arrRef spec0 w) ↦{(dats m 0 c).share w} V m c (Pipeline.arrRef spec0 w)) := by
  rw [(Gen.arr_whole0 w).set_eq_univ]; rfl

/-- At the region's entry the three buffers behind the windows' arrays are held whole at the full share. Halving the
    weight array's share three times gives the eight weight windows an eighth each; the activation array and the
    result array go to their one window whole. This is the proof data's `arrays` at the entry contents. -/
theorem hsplit (c : Dev nD) :
    (Pipeline.arrBufs spec0 c (V m c) : sProp 𝕄) ⊢ (dats m 0 c).arrays ((dats m 0 c).A) := by
  unfold Pipeline.arrBufs Dat.arrays
  -- the left side is over three buffers; the right side is ten points-tos, each on a whole buffer
  rw [arrRef_image, Gen.bigSep_W0, win_arr m c 0, win_arr m c 1, win_arr m c 2, win_arr m c 3, win_arr m c 4, win_arr m c 5, win_arr m c 6,
    win_arr m c 7, win_arr m c 8, win_arr m c 9]
  -- windows 1 to 8 all sit on the weight buffer, each at its eighth; windows 0 and 9 hold their buffers whole
  show _ ⊢ iprop((((c.tc : Thread nD τ).loc main_arg0) ↦{fullShare} V m c main_arg0)
    ∗ (((c.tc : Thread nD τ).loc main_arg1) ↦{fullShare.left.left.left} V m c main_arg1)
    ∗ (((c.tc : Thread nD τ).loc main_arg1) ↦{fullShare.left.left.right} V m c main_arg1)
    ∗ (((c.tc : Thread nD τ).loc main_arg1) ↦{fullShare.left.right.left} V m c main_arg1)
    ∗ (((c.tc : Thread nD τ).loc main_arg1) ↦{fullShare.left.right.right} V m c main_arg1)
    ∗ (((c.tc : Thread nD τ).loc main_arg1) ↦{fullShare.right.left.left} V m c main_arg1)
    ∗ (((c.tc : Thread nD τ).loc main_arg1) ↦{fullShare.right.left.right} V m c main_arg1)
    ∗ (((c.tc : Thread nD τ).loc main_arg1) ↦{fullShare.right.right.left} V m c main_arg1)
    ∗ (((c.tc : Thread nD τ).loc main_arg1) ↦{fullShare.right.right.right} V m c main_arg1)
    ∗ (((c.tc : Thread nD τ).loc main_v0) ↦{fullShare} V m c main_v0))
  rw [bigSep_insert (show main_arg0 ∉ ({main_arg1, main_v0} : Finset (Ref sig .tc)) by decide),
    bigSep_insert (show main_arg1 ∉ ({main_v0} : Finset (Ref sig .tc)) by decide), bigSep_singleton]
  refine (show iprop((((c.tc : Thread nD τ).loc main_arg0) ↦{fullShare} V m c main_arg0)
    ∗ (((c.tc : Thread nD τ).loc main_arg1) ↦{fullShare} V m c main_arg1)
    ∗ (((c.tc : Thread nD τ).loc main_v0) ↦{fullShare} V m c main_v0)) ⊢ _ from ?_)
  iintro ⟨H0, H1, H9⟩
  -- deal the weight buffer's full share into eighths, then hand the ten pieces over in order
  ihave H1 := (pointsTo_eighths Finset.univ fullShare (V m c main_arg1)) $$ H1
  icases H1 with ⟨W1, W2, W3, W4, W5, W6, W7, W8⟩
  isplitl [H0]; · iexact H0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact H9

end Cert.KernelIdeal.Hand

end
-- ==== Proof.KI.Cover.lean ====
/-
  The thirteen blocks of the result's window cover the result array.
-/
import proofs.«135577_g40484361732593_fold_wed_c4_616_37_alg».proof.Proof.KI.Data
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The printed index map of the result's window, and the part of each block inside the array, at every grid point:
    block (0, t), all 128 rows, and 8192 columns except at the last point, where 100000 − 12·8192 = 1696 remain. -/
theorem win9_facts : ∀ t : Fin grid0.N, win0_9.index t 0 = 0 ∧ win0_9.index t 1 = t.val ∧
    win0_9.xsize (grid0.coords t) 0 = 128 ∧ win0_9.xsize (grid0.coords t) 1 = if t.val = 12 then 1696 else 8192 := by
  decide +kernel

/-- Every entry of the result array lies in the block of the grid point `column / 8192`, which writes back. -/
theorem cover9 (c : Dev nD) (i : ((cfg0.win 9).arr.view.loc (c : Thread nD τ)).2.ty.Idx) :
    ∃ t : Fin cfg0.N, (cfg0.win 9).flush t = true ∧ i ∈ ((cfg0.win 9).blk t).view.set := by
  change S128x100000.Idx at i
  have h0 : (i 0 : Nat) < 128 := (i 0).isLt
  have h1 : (i 1 : Nat) < 100000 := (i 1).isLt
  have hN : (i 1 : Nat) / 8192 < grid0.N := by rw [N_0]; omega
  refine ⟨⟨(i 1 : Nat) / 8192, hN⟩, flush0_9 _, ?_⟩
  show i ∈ ((View.whole main_v0).slice (win0_9.rect ⟨(i 1 : Nat) / 8192, hN⟩)).set
  rw [View.set_slice_whole, Rect.mem_set_unit]
  obtain ⟨e0, e1, x0, x1⟩ := win9_facts ⟨(i 1 : Nat) / 8192, hN⟩
  have s1 : win0_9.size 1 = 8192 := rfl
  intro a
  match a with
  | ⟨0, _⟩ =>
    change win0_9.index ⟨(i 1 : Nat) / 8192, hN⟩ 0 * win0_9.size 0 ≤ (i 0 : Nat) ∧
      (i 0 : Nat) < win0_9.index ⟨(i 1 : Nat) / 8192, hN⟩ 0 * win0_9.size 0 + win0_9.xsize (grid0.coords ⟨(i 1 : Nat) / 8192, hN⟩) 0
    rw [e0, x0]; omega
  | ⟨1, _⟩ =>
    change win0_9.index ⟨(i 1 : Nat) / 8192, hN⟩ 1 * win0_9.size 1 ≤ (i 1 : Nat) ∧
      (i 1 : Nat) < win0_9.index ⟨(i 1 : Nat) / 8192, hN⟩ 1 * win0_9.size 1 + win0_9.xsize (grid0.coords ⟨(i 1 : Nat) / 8192, hN⟩) 1
    rw [e1, x1, s1]
    -- column i 1 lies in [8192·q, 8192·q + 8192) for q = i 1 / 8192; at q = 12 the bound is 98304 + 1696 = 100000
    show (i 1 : Nat) / 8192 * 8192 ≤ (i 1 : Nat) ∧ (i 1 : Nat) < (i 1 : Nat) / 8192 * 8192 + (if (i 1 : Nat) / 8192 = 12 then 1696 else 8192)
    split <;> omega

end Cert.KernelIdeal.Hand

end
-- ==== Proof.KI.Run.lean ====
/-
  The idealized kernel's run and what its result array holds afterwards: the frame run for windows that share an
  array, then the result array as the specification of the argument arrays.
-/
import proofs.«135577_g40484361732593_fold_wed_c4_616_37_alg».proof.Proof.KI.Data
import proofs.«135577_g40484361732593_fold_wed_c4_616_37_alg».proof.Proof.KI.Body
import proofs.«135577_g40484361732593_fold_wed_c4_616_37_alg».proof.Proof.KI.Split
import proofs.«135577_g40484361732593_fold_wed_c4_616_37_alg».proof.Proof.KI.Cover
import proofs.«135577_g40484361732593_fold_wed_c4_616_37_alg».proof.Proof.LibSharedFrame
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-! ## The run -/

/-- @main is the region alone. -/
theorem hmain (𝒱₀ : Variants) :
    Pipeline.HMain (Ix := Unit) (Name := ℕ) (U := UR sig nD τ) (Lvl := ℕ) cfgs 0 defs₀ 𝒱₀ m (main (F := Ideal)) (V m) :=
  Pipeline.hmain_region cfgs 0 defs₀ 𝒱₀ m main fun c => (main_chain c).trans rfl

set_option backward.isDefEq.respectTransparency.types false in
/-- Every weakly fair execution of the idealized kernel terminates, each array of the pipeline ending at what the
    library computes from the proof data: the frame run for windows that share an array, at the exact data read
    relationally. -/
theorem run_main : θ_run defs (onTc (τ := τ) (main (F := Ideal))) (s₀ m ρ) (Pipeline.FramePost cfgs (dats m) 0 (V m)) :=
  (θ_run defs _ _).mono (fun r h => Pipeline.RDat.FramePost.toDat cfgs (dats m) 0 (V m) r h)
    (Cert.Lib.rframe_shared cfgs (0 : Fin 1) winFacts₀0 cellOf_inj block_pos0 arr_whole0 stage_whole0 defs₀ Variants.none
      (fun c => (dats m 0 c).toR) m ρ main (fun c => (body_obligation m c).toR) (fun _ _ => rfl) (V m)
      (hmain m Variants.none) (fun c => hsplit m c) (fun _ => .rfl) (fun _ => .rfl))

/-! ## The arrays after the run -/

/-- What a point writes back to the result array is the specification read through the point's block. -/
theorem flushed_eq (c : Dev nD) (t : Fin cfg0.N) :
    (dats m 0 c).flushed 9 t = ((cfg0.win 9).blk t).view.read (Elt Ideal) (G m c) := by
  show win0_9.cut (grid0.coords t) ((dats m 0 c).after 9 t) = _
  rw [after_9]
  exact flushed9_eq m c t zf zf zf zf zf zf zf zf

/-- The result array ends holding the specification: every point's block holds it and the blocks cover the array. -/
theorem final_9 (c : Dev nD) : (dats m 0 c).arrAt 9 cfg0.N = G m c :=
  (dats m 0 c).arrAt_eq_of_cover 9 (G m c) (fun t _ => flushed_eq m c t) (cover9 c)

/-- The idealized kernel's run with its result named: the result array ends at the specification of the argument
    arrays, which end unchanged. -/
theorem value_run : θ_run defs (onTc (τ := τ) (main (F := Ideal))) ⟨m, fun _ => 0, ρ⟩ (fun r => ∀ c : Dev nD,
    r.2.mem ((c.tc : Thread nD τ).loc main_v0) = G m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).1 9).trans (final_9 m c),
     ((h c).1 0).trans (((dats m 0 c).arrAt_in 0 rfl _).trans (A_eq m c 0)),
     ((h c).1 1).trans (((dats m 0 c).arrAt_in 1 rfl _).trans (A_eq m c 1))⟩) (run_main m ρ)

end Cert.KernelIdeal.Hand

end
-- ==== Proof.Ref.lean ====
/-
  The reference at the ideal instance computes the specification: it transposes w and contracts x's columns against
  the transposed rows, which entry by entry is ∑ₖ x[b, k] · w[c, k].
-/
import proofs.«135577_g40484361732593_fold_wed_c4_616_37_alg».proof.Proof.Gen.ReferenceIdeal.Run
import proofs.«135577_g40484361732593_fold_wed_c4_616_37_alg».proof.Proof.Gen.ReferenceIdeal.Read
import proofs.«135577_g40484361732593_fold_wed_c4_616_37_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Value

/-- Row b of x against row c of w: the reference's two index maps composed are the specification's. -/
theorem result_eq (x0 : (⟨S128x512, .f32⟩ : BufTy).Contents (Elt Ideal)) (x1 : (⟨S100000x512, .f32⟩ : BufTy).Contents (Elt Ideal)) :
    Read.val_main_v1 (F := Ideal) x0 x1 = Cert.Spec.logits x0 x1 := by
  funext i
  rw [Read.val_main_v1_apply]
  unfold Cert.Spec.logits
  refine Finset.sum_congr rfl fun k _ => ?_
  rw [Read.val_main_v0_apply]
  have el : Read.lidx_main_v1 i k = ValueIdx.ix2 (i 0) k :=
    funext fun a => Fin.ext (by match a with | ⟨0, _⟩ => rfl | ⟨1, _⟩ => rfl)
  have er : Read.idx_main_v0 (Read.ridx_main_v1 i k) = ValueIdx.ix2 (i 1) k :=
    funext fun a => Fin.ext (by match a with | ⟨0, _⟩ => rfl | ⟨1, _⟩ => rfl)
  rw [el, er]
  rfl

end Cert.ReferenceIdeal.RefValue

end
-- ==== Proof.lean ====
/-
  logits = x · wᵀ for x : f32[128, 512] and w : f32[100000, 512], computed by a pipelined kernel that reads w through
  eight windows at once, against the plain product of the reference.

  The kernel's grid has 13 points. At point t, weight window j (1 ≤ j ≤ 8) stages rows 1024·min(8t + j − 1, 97) … of w and
  the body stores x times those rows into columns 1024(j − 1) … of the result's block, which is written back to
  columns 8192t … of the result array, cut at the array's end. For a result column below 100000 the block index
  8t + j − 1 is the column divided by 1024, at most 97, so the minimum never bites and the staged row is the column's
  own row of w, inside the array; the staged rows past the array's end only reach result columns past its end, which
  the cut write-back drops. At the ideal instance a rounding to bf16 is the identity and the matrix unit's product
  from a zero accumulator is the plain sum, so each result entry is ∑ₖ x[b, k] · w[c, k], which is what the reference's
  transpose and contraction give: the two sides are the same sum, and no law that needs finiteness is used.

  The eight windows share one array: its share is dealt among them in eighths, and the frame run is the library's
  with that deal in place of distinct arrays. The kernel as printed is framed with nothing said of the staging
  buffers' contents (its matrix product is not a sum of named terms there); the idealized kernel with exact contents,
  from which its result array is read.
-/
import proofs.«135577_g40484361732593_fold_wed_c4_616_37_alg».proof.Defs
import proofs.«135577_g40484361732593_fold_wed_c4_616_37_alg».proof.Proof.Gen.Kernel
import proofs.«135577_g40484361732593_fold_wed_c4_616_37_alg».proof.Proof.Gen.KernelIdeal
import proofs.«135577_g40484361732593_fold_wed_c4_616_37_alg».proof.Proof.Gen.ReferenceIdeal
import proofs.«135577_g40484361732593_fold_wed_c4_616_37_alg».proof.Proof.Gen.Pre_finite_inputs
import proofs.«135577_g40484361732593_fold_wed_c4_616_37_alg».proof.Proof.K.Frame
import proofs.«135577_g40484361732593_fold_wed_c4_616_37_alg».proof.Proof.KI.Run
import proofs.«135577_g40484361732593_fold_wed_c4_616_37_alg».proof.Proof.Ref
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Hand.frame (F := Bits) m ρ

/-- So does the idealized kernel: its value run with the result dropped. -/
theorem frame_kernelIdeal : Cert.frame_KernelIdeal := fun m ρ _ =>
  (θ_run Cert.KernelIdeal.defs _ _).mono (fun _ h c => (h c).2) (Cert.KernelIdeal.Hand.value_run m ρ)

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on x and w both idealized programs end with the result at ∑ₖ x[b, k] · w[c, k]. -/
theorem algebraic : Cert.algebraic_KernelIdeal_ReferenceIdeal := by
  intro m ρ m' ρ' _ hagree
  refine ⟨fun c => Cert.KernelIdeal.Hand.G m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
